-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S2048x1 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x128 : Shape := ⟨2, ![1000000, 128]⟩
abbrev S1000x128 : Shape := ⟨2, ![1000, 128]⟩
abbrev S1000000 : Shape := ⟨1, ![1000000]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S1000x128 : S_.BroadcastsInDim S1000x128 (![] : Fin 0 → Fin S1000x128.rank)
  reducesTo_S1000x128_S_d0_1 : S1000x128.ReducesTo [0, 1] S_

variable [Facts]

def fn {F : FTy → Type} [FloatOps F] (main_arg0 : FVec F S1000000x128 .f32) (main_arg1 : FVec F S1000x128 .f32) (main_arg2 : IVec S1000000 32) : IVec S_ 1 :=
  let main_v0 : FVec F S1000000x128 .f32 := Host.absf main_arg0
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S1000x128 .f32 := Host.absf main_arg1
  let main_cst_0 : FVec F S_ .f32 := constant S_ .f32 0x7F800000#32
  let main_v5 : FVec F S1000x128 .f32 := broadcastInDim S1000x128 ![] bcast_S_S1000x128 main_cst_0
  let main_v6 : IVec S1000x128 1 := cmpf .olt main_v4 main_v5
  let main_c_1 : IVec S_ 1 := constantI S_ 1 1#1
  let main_v7 : IVec S_ 1 := (fun x v => Host.reduce IntOp.andi x v reducesTo_S1000x128_S_d0_1 h_S_) main_v6 main_c_1
  let main_v8 : IVec S_ 1 := andi main_v3 main_v7
  main_v8
-- ==== Kernel.lean ====
abbrev S1000000x128 : Shape := ⟨2, ![1000000, 128]⟩
abbrev S1000x128 : Shape := ⟨2, ![1000, 128]⟩
abbrev S1000000 : Shape := ⟨1, ![1000000]⟩
abbrev S_ : Shape := ⟨0, ![]⟩
abbrev S3520x128 : Shape := ⟨2, ![3520, 128]⟩
abbrev S1003520x128 : Shape := ⟨2, ![1003520, 128]⟩
abbrev S3520 : Shape := ⟨1, ![3520]⟩
abbrev S1003520 : Shape := ⟨1, ![1003520]⟩
abbrev S1x1003520 : Shape := ⟨2, ![1, 1003520]⟩
abbrev S2x1000x256 : Shape := ⟨3, ![2, 1000, 256]⟩
abbrev S2048x128 : Shape := ⟨2, ![2048, 128]⟩
abbrev S1x2048 : Shape := ⟨2, ![1, 2048]⟩
abbrev S1x1000x256 : Shape := ⟨3, ![1, 1000, 256]⟩
abbrev S1000x2048 : Shape := ⟨2, ![1000, 2048]⟩
abbrev S1000x256 : Shape := ⟨2, ![1000, 256]⟩
abbrev S2048 : Shape := ⟨1, ![2048]⟩
abbrev S2048x1 : Shape := ⟨2, ![2048, 1]⟩
abbrev S2048x256 : Shape := ⟨2, ![2048, 256]⟩
abbrev S1000x1 : Shape := ⟨2, ![1000, 1]⟩
abbrev S1000 : Shape := ⟨1, ![1000]⟩

abbrev nBuf : Space → Nat
  | .hbm => 44
  | .vmem => 8
  | .smem => 0
  | _ => 0

abbrev bufTy : (tb : Table) → Fin (tcTables nBuf tb) → BufTy
  | .hbm, ⟨0, _⟩ => ⟨S1000000x128, .f32⟩
  | .hbm, ⟨1, _⟩ => ⟨S1000x128, .f32⟩
  | .hbm, ⟨2, _⟩ => ⟨S1000000, .i32⟩
  | .hbm, ⟨3, _⟩ => ⟨S_, .f32⟩
  | .hbm, ⟨4, _⟩ => ⟨S3520x128, .f32⟩
  | .hbm, ⟨5, _⟩ => ⟨S1003520x128, .f32⟩
  | .hbm, ⟨6, _⟩ => ⟨S_, .i32⟩
  | .hbm, ⟨7, _⟩ => ⟨S3520, .i32⟩
  | .hbm, ⟨8, _⟩ => ⟨S1003520, .i32⟩
  | .hbm, ⟨9, _⟩ => ⟨S1x1003520, .i32⟩
  | .hbm, ⟨10, _⟩ => ⟨S2x1000x256, .f32⟩
  | .hbm, ⟨11, _⟩ => ⟨S_, .f32⟩
  | .hbm, ⟨12, _⟩ => ⟨S1000x256, .f32⟩
  | .hbm, ⟨13, _⟩ => ⟨S1000x128, .f32⟩
  | .hbm, ⟨14, _⟩ => ⟨S1000x1, .f32⟩
  | .hbm, ⟨15, _⟩ => ⟨S1000, .f32⟩
  | .hbm, ⟨16, _⟩ => ⟨S1000x1, .f32⟩
  | .hbm, ⟨17, _⟩ => ⟨S1000, .f32⟩
  | .hbm, ⟨18, _⟩ => ⟨S1000, .f32⟩
  | .hbm, ⟨19, _⟩ => ⟨S1000x1, .f32⟩
  | .hbm, ⟨20, _⟩ => ⟨S1000, .f32⟩
  | .hbm, ⟨21, _⟩ => ⟨S1000x128, .f32⟩
  | .hbm, ⟨22, _⟩ => ⟨S_, .f32⟩
  | .hbm, ⟨23, _⟩ => ⟨S1000, .f32⟩
  | .hbm, ⟨24, _⟩ => ⟨S1000x128, .f32⟩
  | .hbm, ⟨25, _⟩ => ⟨S_, .f32⟩
  | .hbm, ⟨26, _⟩ => ⟨S1000, .f32⟩
  | .hbm, ⟨27, _⟩ => ⟨S_, .f32⟩
  | .hbm, ⟨28, _⟩ => ⟨S1000, .f32⟩
  | .hbm, ⟨29, _⟩ => ⟨S1000, .f32⟩
  | .hbm, ⟨30, _⟩ => ⟨S1000, .f32⟩
  | .hbm, ⟨31, _⟩ => ⟨S1000, .f32⟩
  | .hbm, ⟨32, _⟩ => ⟨S1000, .f32⟩
  | .hbm, ⟨33, _⟩ => ⟨S_, .f32⟩
  | .hbm, ⟨34, _⟩ => ⟨S1000, .f32⟩
  | .hbm, ⟨35, _⟩ => ⟨S1000, .i1⟩
  | .hbm, ⟨36, _⟩ => ⟨S1000, .f32⟩
  | .hbm, ⟨37, _⟩ => ⟨S1000, .f32⟩
  | .hbm, ⟨38, _⟩ => ⟨S_, .f32⟩
  | .hbm, ⟨39, _⟩ => ⟨S_, .f32⟩
  | .hbm, ⟨40, _⟩ => ⟨S1000, .f32⟩
  | .hbm, ⟨41, _⟩ => ⟨S1000, .f32⟩
  | .hbm, ⟨42, _⟩ => ⟨S_, .f32⟩
  | .hbm, ⟨43, _⟩ => ⟨S_, .f32⟩
  | .local _ .vmem, ⟨0, _⟩ => ⟨S2048x128, .f32⟩
  | .local _ .vmem, ⟨1, _⟩ => ⟨S2048x128, .f32⟩
  | .local _ .vmem, ⟨2, _⟩ => ⟨S1x2048, .i32⟩
  | .local _ .vmem, ⟨3, _⟩ => ⟨S1x2048, .i32⟩
  | .local _ .vmem, ⟨4, _⟩ => ⟨S1x1000x256, .f32⟩
  | .local _ .vmem, ⟨5, _⟩ => ⟨S1x1000x256, .f32⟩
  | .local _ .vmem, ⟨6, _⟩ => ⟨S1000x2048, .i32⟩
  | .local _ .vmem, ⟨7, _⟩ => ⟨S2048x128, .i32⟩
  | _, _ => ⟨S1000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_call0_v0 : Ref sig .tc := ⟨.hbm, 39, rfl⟩
abbrev main_call0_v1 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 245], ![false, false]⟩

def cc0_transform_0 (i : grid0.Coords) : Fin 2 → Nat :=
  let arg0 : BitVec 32 := BitVec.ofNat 32 (i 0).val
  let arg1 : BitVec 32 := BitVec.ofNat 32 (i 1).val
  let c245_i32 : BitVec 32 := 245#32
  let v0 : BitVec 32 := Scalar.muli arg0 c245_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c245_i32 : BitVec 32 := 245#32
  let v0 : BitVec 32 := Scalar.muli arg0 c245_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S_S3520x128 : S_.BroadcastsInDim S3520x128 (![] : Fin 0 → Fin S3520x128.rank)
  concatenates_S1000000x128_S3520x128_S1003520x128_d0 : Shape.Concatenates [S1000000x128, S3520x128] S1003520x128 0
  bcast_S_S3520 : S_.BroadcastsInDim S3520 (![] : Fin 0 → Fin S3520.rank)
  concatenates_S1000000_S3520_S1003520_d0 : Shape.Concatenates [S1000000, S3520] S1003520 0
  shapeCasts_S1003520_S1x1003520 : S1003520.ShapeCasts S1x1003520
  inb_S1x1000x256_S1x1000x256_0_0_0 : ∀ a, (![0, 0, 0] : Fin 3 → Nat) a + S1x1000x256.size a ≤ S1x1000x256.size a
  h_S1x1000x256 : 0 < S1x1000x256.numel
  shapeCasts_S1x1000x256_S1000x256 : S1x1000x256.ShapeCasts S1000x256
  shapeCasts_S1000x256_S1x1000x256 : S1000x256.ShapeCasts S1x1000x256
  iota_S1000x2048_d0_w32 : S1000x2048.Iotas .tc 32 [0]
  inb_S1000x2048_S1000x2048_0_0 : ∀ a, (![0, 0] : Fin 2 → Nat) a + S1000x2048.size a ≤ S1000x2048.size a
  h_S1000x2048 : 0 < S1000x2048.numel
  shapeCasts_S1000x2048_S1000x2048 : S1000x2048.ShapeCasts S1000x2048
  iota_S2048x128_d1_w32 : S2048x128.Iotas .tc 32 [1]
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  reduces_S2048x128_S2048 : S2048x128.Reduces [1] S2048
  shapeCasts_S2048_S2048x1 : S2048.ShapeCasts S2048x1
  bitsLt_bf16_f32 : FTy.bits .bf16 < FTy.bits .f32
  shapeCasts_S2048x1_S2048x1 : S2048x1.ShapeCasts S2048x1
  broadcasts_S2048x1_S2048x128 : S2048x1.Broadcasts S2048x128
  concatenates_S2048x128_S2048x128_S2048x256_d1 : Shape.Concatenates [S2048x128, S2048x128] S2048x256 1
  broadcasts_S1x2048_S1000x2048 : S1x2048.Broadcasts S1000x2048
  natLt_1_32 : 1 < 32
  reducesTo_S2x1000x256_S1000x256_d0 : S2x1000x256.ReducesTo [0] S1000x256
  h_S_ : 0 < S_.numel
  slices_S1000x256_S1000x128_0_0 : S1000x256.Slices ![0, 0] S1000x128
  slices_S1000x256_S1000x1_0_128 : S1000x256.Slices ![0, 128] S1000x1
  shapeCasts_S1000x1_S1000 : S1000x1.ShapeCasts S1000
  slices_S1000x256_S1000x1_0_130 : S1000x256.Slices ![0, 130] S1000x1
  slices_S1000x256_S1000x1_0_129 : S1000x256.Slices ![0, 129] S1000x1
  reducesTo_S1000x128_S1000_d1 : S1000x128.ReducesTo [1] S1000
  bcast_S_S1000 : S_.BroadcastsInDim S1000 (![] : Fin 0 → Fin S1000.rank)
  reducesTo_S1000_S_d0 : S1000.ReducesTo [0] S_
  dot_S1000x2048_S2048x256_S1000x256_1_0_0_1_n_n_wf : DotDims.WF S1000x2048 S2048x256 S1000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S1003520x128.size a
  hwx0_0 : ∀ i : grid0.Coords, EltTy.bits .f32 = 32 ∨ (Rect.block (s := S1003520x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x1003520.size a
  hwx0_1 : ∀ i : grid0.Coords, EltTy.bits .i32 = 32 ∨ (Rect.block (s := S1x1003520) S1x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1000x256.size a ≤ S2x1000x256.size a
  hwx0_2 : ∀ i : grid0.Coords, EltTy.bits .f32 = 32 ∨ (Rect.block (s := S2x1000x256) S1x1000x256.size (cc0_transform_2 i) (hinb0_2 i)).WholeWords (EltTy.packing .f32)

variable [Facts₀]

def dot_S1000x2048_S2048x256_S1000x256_1_0_0_1_n_n : DotDims S1000x2048 S2048x256 S1000x256 where
  lhsContracting := [1]
  rhsContracting := [0]
  lhsNonContracting := [0]
  rhsNonContracting := [1]
  lhsBatch := []
  rhsBatch := []
  wf := dot_S1000x2048_S2048x256_S1000x256_1_0_0_1_n_n_wf

abbrev win0_0 : Pipeline.Window sig grid0 :=
  Pipeline.Window.ofSpec (Memref.whole main_v1) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1000000x128 : Shape := ⟨2, ![1000000, 128]⟩
abbrev S1000x128 : Shape := ⟨2, ![1000, 128]⟩
abbrev S1000000 : Shape := ⟨1, ![1000000]⟩
abbrev S_ : Shape := ⟨0, ![]⟩
abbrev S1000000x1 : Shape := ⟨2, ![1000000, 1]⟩
abbrev S1000 : Shape := ⟨1, ![1000]⟩

abbrev nBuf : Space → Nat
  | .hbm => 37
  | .vmem => 0
  | .smem => 0
  | _ => 0

abbrev bufTy : (tb : Table) → Fin (tcTables nBuf tb) → BufTy
  | .hbm, ⟨0, _⟩ => ⟨S1000000x128, .f32⟩
  | .hbm, ⟨1, _⟩ => ⟨S1000x128, .f32⟩
  | .hbm, ⟨2, _⟩ => ⟨S1000000, .i32⟩
  | .hbm, ⟨3, _⟩ => ⟨S_, .i32⟩
  | .hbm, ⟨4, _⟩ => ⟨S1000000, .i32⟩
  | .hbm, ⟨5, _⟩ => ⟨S1000000, .i1⟩
  | .hbm, ⟨6, _⟩ => ⟨S_, .i32⟩
  | .hbm, ⟨7, _⟩ => ⟨S1000000, .i32⟩
  | .hbm, ⟨8, _⟩ => ⟨S1000000, .i32⟩
  | .hbm, ⟨9, _⟩ => ⟨S1000000, .i32⟩
  | .hbm, ⟨10, _⟩ => ⟨S1000000x1, .i32⟩
  | .hbm, ⟨11, _⟩ => ⟨S1000000x128, .f32⟩
  | .hbm, ⟨12, _⟩ => ⟨S1000000x128, .f32⟩
  | .hbm, ⟨13, _⟩ => ⟨S1000000x128, .f32⟩
  | .hbm, ⟨14, _⟩ => ⟨S_, .f32⟩
  | .hbm, ⟨15, _⟩ => ⟨S1000000, .f32⟩
  | .hbm, ⟨16, _⟩ => ⟨S_, .f32⟩
  | .hbm, ⟨17, _⟩ => ⟨S1000, .f32⟩
  | .hbm, ⟨18, _⟩ => ⟨S1000000x1, .i32⟩
  | .hbm, ⟨19, _⟩ => ⟨S1000, .f32⟩
  | .hbm, ⟨20, _⟩ => ⟨S_, .f32⟩
  | .hbm, ⟨21, _⟩ => ⟨S1000000, .f32⟩
  | .hbm, ⟨22, _⟩ => ⟨S_, .f32⟩
  | .hbm, ⟨23, _⟩ => ⟨S1000, .f32⟩
  | .hbm, ⟨24, _⟩ => ⟨S1000000x1, .i32⟩
  | .hbm, ⟨25, _⟩ => ⟨S1000, .f32⟩
  | .hbm, ⟨26, _⟩ => ⟨S_, .f32⟩
  | .hbm, ⟨27, _⟩ => ⟨S1000, .f32⟩
  | .hbm, ⟨28, _⟩ => ⟨S1000, .i1⟩
  | .hbm, ⟨29, _⟩ => ⟨S1000, .f32⟩
  | .hbm, ⟨30, _⟩ => ⟨S1000, .f32⟩
  | .hbm, ⟨31, _⟩ => ⟨S_, .f32⟩
  | .hbm, ⟨32, _⟩ => ⟨S_, .f32⟩
  | .hbm, ⟨33, _⟩ => ⟨S1000, .f32⟩
  | .hbm, ⟨34, _⟩ => ⟨S1000, .f32⟩
  | .hbm, ⟨35, _⟩ => ⟨S_, .f32⟩
  | .hbm, ⟨36, _⟩ => ⟨S_, .f32⟩
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_call0_v0 : Ref sig .tc := ⟨.hbm, 32, rfl⟩
abbrev main_call0_v1 : Ref sig .tc := ⟨.hbm, 33, rfl⟩
abbrev main_v21 : Ref sig .tc := ⟨.hbm, 34, rfl⟩
abbrev main_cst_6 : Ref sig .tc := ⟨.hbm, 35, rfl⟩
abbrev main_v22 : Ref sig .tc := ⟨.hbm, 36, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  reducesTo_S1000000x128_S1000000_d1 : S1000000x128.ReducesTo [1] S1000000
  h_S_ : 0 < S_.numel
  bcast_S_S1000 : S_.BroadcastsInDim S1000 (![] : Fin 0 → Fin S1000.rank)
  reducesTo_S1000_S_d0 : S1000.ReducesTo [0] S_
  gather_S1000x128_S1000000x1_S1000000x128_1_0_n_n_0_1_1128_wf : GatherDims.WF S1000x128 S1000000x1 S1000000x128 [1] [0] [] [0] [] 1 ![1, 128]
  scatter_S1000_S1000000x1_S1000000_n_0_0_1_wf : ScatterDims.WF S1000 S1000000x1 S1000000 [] [0] [0] 1

variable [Facts₀]

def gather_S1000x128_S1000000x1_S1000000x128_1_0_n_n_0_1_1128 : GatherDims S1000x128 S1000000x1 S1000000x128 where
  offsetDims := [1]
  collapsedSliceDims := [0]
  operandBatchingDims := []
  startIndicesBatchingDims := []
  startIndexMap := [0]
  indexVectorDim := 1
  sliceSizes := ![1, 128]
  wf := gather_S1000x128_S1000000x1_S1000000x128_1_0_n_n_0_1_1128_wf
def scatter_S1000_S1000000x1_S1000000_n_0_0_1 : ScatterDims S1000 S1000000x1 S1000000 where
  updateWindowDims := []
  insertedWindowDims := [0]
  scatterDimsToOperandDims := [0]
  indexVectorDim := 1
  wf := scatter_S1000_S1000000x1_S1000000_n_0_0_1_wf

class Facts : Prop extends Facts₀ where

variable [Facts]
-- ==== Proof.Spec.lean ====
/-
  The mathematics both programs are read against, over literal index types and the extended reals.

  Inputs: a data matrix X (1000000 rows of 128), an anchor matrix A (1000 rows of 128), one label word per data row.
  The kernel pads the data with 3520 zero rows and the labels with 3520 words of all ones (the integer -1), cuts the
  1003520 padded rows into 490 blocks of 2048, and for each block multiplies the 1000 x 2048 matrix of label matches
  (entry 1 where the row's label word is the class number, else 0) with the block's rows AUGMENTED by 128 more columns:
  column 128 the row's squared norm, column 129 the constant 1, column 130 the squared norm minus itself, the rest 0.
  Core p sums the products of its 245 blocks into its slab; the two slabs are summed. From that 1000 x 256 aggregate the
  per-class sum of squared distances is rebuilt as S - 2 (A . T) + count * |A|^2, where T is the per-class sum of rows
  (columns 0..127), S the per-class sum of squared norms (columns 128 and 130), count the class size (column 129).
  The reference gathers each row's anchor, sums the squared differences per row, and adds them per class.
  Both end with the same closing: per class, where the count is positive, the sum divided by the squared count, else 0;
  summed over the classes.
-/
import Idealize.ShloMosaic.PureOps.Ideal
import Idealize.ShloMosaic.Lib.ValueIdx

noncomputable section

open scoped BigOperators

namespace Cert.Spec

open Idealize.ShloMosaic Idealize.ShloMosaic.ValueIdx

/-! ## Constants the programs spell -/

theorem ofBits_zero_f32 : Ideal.ofBits .f32 0x00000000#32 = 0 := by
  simp [Ideal.ofBits, Ideal.ieee]
theorem ofBits_one_f32 : Ideal.ofBits .f32 0x3F800000#32 = 1 := by
  simp [Ideal.ofBits, Ideal.ieee, -EReal.coe_mul]; norm_num
theorem ofBits_two_f32 : Ideal.ofBits .f32 0x40000000#32 = 2 := by
  have h : Ideal.ofBits .f32 0x40000000#32 = ((2 : ℝ) : EReal) := by
    simp [Ideal.ofBits, Ideal.ieee, -EReal.coe_mul]; norm_num
  rw [h]; norm_cast
theorem ofBits_zero_bf16 : Ideal.ofBits .bf16 0x0000#16 = 0 := by
  simp [Ideal.ofBits, Ideal.ieee]
theorem ofBits_one_bf16 : Ideal.ofBits .bf16 0x3F80#16 = 1 := by
  simp [Ideal.ofBits, Ideal.ieee, -EReal.coe_mul]; norm_num

/-! ## Arrays as functions of literal coordinates -/

/-- A rank-2 float array as a function of its row and column. -/
abbrev mat {n k : Nat} (v : FVec Ideal ⟨2, ![n, k]⟩ .f32) : Fin n → Fin k → EReal := fun i e => v (ix2 i e)

/-- A rank-1 array of 32-bit words as a function of its position. -/
abbrev vecw {n : Nat} (v : IVec ⟨1, ![n]⟩ 32) : Fin n → BitVec 32 := fun i => v (ix1 i)

/-- A one-row array of 32-bit words as a function of its column. -/
abbrev roww {n : Nat} (v : IVec ⟨2, ![1, n]⟩ 32) : Fin n → BitVec 32 := fun i => v (ix2 (0 : Fin 1) i)

/-! ## The padded inputs -/

/-- The data with 3520 zero rows appended. -/
def padX (X : Fin 1000000 → Fin 128 → EReal) (n : Fin 1003520) (e : Fin 128) : EReal :=
  if h : n.val < 1000000 then X ⟨n.val, h⟩ e else 0

/-- The label words with 3520 words of all ones (the integer -1) appended. -/
def padY (Y : Fin 1000000 → BitVec 32) (n : Fin 1003520) : BitVec 32 :=
  if h : n.val < 1000000 then Y ⟨n.val, h⟩ else 4294967295#32

/-! ## The kernel's side -/

/-- A row's squared norm. -/
def nrm {N : Nat} (X : Fin N → Fin 128 → EReal) (n : Fin N) : EReal := ∑ e : Fin 128, X n e * X n e

/-- The label match: 1 where the label word is the class number, else 0. -/
def oh (w : BitVec 32) (l : Fin 1000) : EReal := if w = BitVec.ofNat 32 l.val then 1 else 0

/-- A row augmented to 256 columns. -/
def xaug {N : Nat} (XP : Fin N → Fin 128 → EReal) (n : Fin N) (d : Fin 256) : EReal :=
  if h : d.val < 128 then XP n ⟨d.val, h⟩
  else if d.val = 128 then nrm XP n
  else if d.val = 129 then 1
  else if d.val = 130 then nrm XP n - nrm XP n
  else 0

/-- Row j of block t. -/
def row (t : Fin 490) (j : Fin 2048) : Fin 1003520 :=
  ⟨t.val * 2048 + j.val, by have := t.isLt; have := j.isLt; omega⟩

/-- Block t's product: the label matches of its 2048 rows times the augmented rows. -/
def mm (XP : Fin 1003520 → Fin 128 → EReal) (YP : Fin 1003520 → BitVec 32) (t : Fin 490) (l : Fin 1000) (d : Fin 256) : EReal :=
  ∑ j : Fin 2048, oh (YP (row t j)) l * xaug XP (row t j) d

/-- The same at a block number given as a natural number (0 past the last block). -/
def mmN (XP : Fin 1003520 → Fin 128 → EReal) (YP : Fin 1003520 → BitVec 32) (b : ℕ) (l : Fin 1000) (d : Fin 256) : EReal :=
  if h : b < 490 then mm XP YP ⟨b, h⟩ l d else 0

/-- Core p's slab: its 245 blocks' products summed, in block order. -/
def slab (XP : Fin 1003520 → Fin 128 → EReal) (YP : Fin 1003520 → BitVec 32) (p : Fin 2) (l : Fin 1000) (d : Fin 256) : EReal :=
  ∑ k ∈ Finset.range 245, mmN XP YP (p.val * 245 + k) l d

/-- The two slabs summed. -/
def agg (XP : Fin 1003520 → Fin 128 → EReal) (YP : Fin 1003520 → BitVec 32) (l : Fin 1000) (d : Fin 256) : EReal :=
  ∑ p : Fin 2, slab XP YP p l d

/-- The class size as the kernel has it: column 129 of the aggregate. -/
def cntK (XP : Fin 1003520 → Fin 128 → EReal) (YP : Fin 1003520 → BitVec 32) (l : Fin 1000) : EReal :=
  agg XP YP l ⟨129, by norm_num⟩

/-- The class's sum of squared distances as the kernel rebuilds it: (S - 2 (A . T)) + count * |A|^2. -/
def segK (A : Fin 1000 → Fin 128 → EReal) (XP : Fin 1003520 → Fin 128 → EReal) (YP : Fin 1003520 → BitVec 32) (l : Fin 1000) : EReal :=
  ((agg XP YP l ⟨128, by norm_num⟩ + agg XP YP l ⟨130, by norm_num⟩)
      - 2 * (∑ e : Fin 128, A l e * agg XP YP l ⟨e.val, by have := e.isLt; omega⟩))
    + agg XP YP l ⟨129, by norm_num⟩ * (∑ e : Fin 128, A l e * A l e)

/-! ## The reference's side -/

/-- The anchor row the reference gathers for a label word: a negative word wraps by 1000, then the word read signed is
    clamped into 0..999. -/
def gidx (w : BitVec 32) : Fin 1000 :=
  ⟨min (Scalar.select (IntOp.cmpi .slt w 0#32) (w + 1000#32) w).toInt.toNat (1000 - 1), by omega⟩

/-- Row i's squared distance to its gathered anchor. -/
def dR (X : Fin 1000000 → Fin 128 → EReal) (A : Fin 1000 → Fin 128 → EReal) (Y : Fin 1000000 → BitVec 32) (i : Fin 1000000) : EReal :=
  ∑ e : Fin 128, (X i e - A (gidx (Y i)) e) * (X i e - A (gidx (Y i)) e)

/-- The rows of class l: those whose label word, read signed, is l. -/
def rowsOf (Y : Fin 1000000 → BitVec 32) (l : Fin 1000) : Finset (Fin 1000000) :=
  Finset.univ.filter fun i => (Y i).toInt = (l.val : ℤ)

/-- The class's sum of squared distances as the reference has it. -/
def segR (X : Fin 1000000 → Fin 128 → EReal) (A : Fin 1000 → Fin 128 → EReal) (Y : Fin 1000000 → BitVec 32) (l : Fin 1000) : EReal :=
  ∑ i ∈ rowsOf Y l, dR X A Y i

/-- The class size as the reference has it. -/
def cntR (Y : Fin 1000000 → BitVec 32) (l : Fin 1000) : EReal :=
  ∑ i ∈ rowsOf Y l, (1 : EReal)

/-! ## The shared closing -/

/-- One class's term: where the count is positive the sum over the squared count, else 0. -/
def pc (s c : EReal) : EReal :=
  Scalar.select (Ideal.cmp .ogt c 0) (Ideal.div s (c * c)) 0

/-- The result: the classes' terms summed. -/
def res (seg cnt : Fin 1000 → EReal) : EReal := ∑ l : Fin 1000, pc (seg l) (cnt l)

end Cert.Spec

end
-- ==== Proof.SumIndex.lean ====
/-
  Re-indexing the kernel's aggregate. The padded rows are cut into 490 blocks of 2048, the blocks dealt to two cores of
  245 each; summing a block's rows, a core's blocks and the two cores is summing over all 1003520 padded rows. A padded
  row's label word is all ones, which is no class number, so its label match is 0 and only the data rows count; and the
  label match of a data row is 1 exactly when its word, read signed, is the class number. So column d of the aggregate
  at class l is the sum, over the rows of class l, of the augmented row's column d.
-/
import proofs.«417570_j76991583748730_3_alg».proof.Proof.Spec

noncomputable section

open scoped BigOperators

namespace Cert.SumIndex

open Idealize.ShloMosaic Cert.Spec

/-- The two cores' 245 blocks each are the 490 blocks. -/
theorem agg_eq_sum_mm (XP : Fin 1003520 → Fin 128 → EReal) (YP : Fin 1003520 → BitVec 32) (l : Fin 1000)
    (d : Fin 256) : agg XP YP l d = ∑ t : Fin 490, mm XP YP t l d := by
  have h1 : ∑ t : Fin 490, mm XP YP t l d = ∑ b ∈ Finset.range 490, mmN XP YP b l d := by
    rw [← Fin.sum_univ_eq_sum_range (fun b => mmN XP YP b l d) 490]
    refine Finset.sum_congr rfl fun t _ => ?_
    simp [mmN, t.isLt]
  rw [h1, show (490 : ℕ) = 245 + 245 from rfl, Finset.sum_range_add]
  simp [agg, slab, Fin.sum_univ_two]

/-- Summing over the blocks and a block's rows is summing over all padded rows. -/
theorem sum_row (f : Fin 1003520 → EReal) :
    ∑ t : Fin 490, ∑ j : Fin 2048, f (row t j) = ∑ n : Fin 1003520, f n := by
  rw [← Fintype.sum_prod_type']
  refine Fintype.sum_equiv (finProdFinEquiv.trans (finCongr (by norm_num))) _ _ fun x => ?_
  congr 1
  ext
  simp [row, finProdFinEquiv]
  ring

/-- A sum over b positions of a function that vanishes past the first a is the sum over the first a. -/
theorem sum_dite_lt {a b : ℕ} (hab : a ≤ b) (g : Fin a → EReal) :
    ∑ n : Fin b, (if h : n.val < a then g ⟨n.val, h⟩ else 0) = ∑ i : Fin a, g i := by
  obtain ⟨c, rfl⟩ := Nat.exists_eq_add_of_le hab
  rw [Fin.sum_univ_add]
  simp

/-- A 32-bit word is the class number l exactly when, read signed, it is l. -/
theorem eq_ofNat_iff (w : BitVec 32) (l : Fin 1000) :
    w = BitVec.ofNat 32 l.val ↔ w.toInt = (l.val : ℤ) := by
  have hl := l.isLt
  have hw := w.isLt
  rw [← BitVec.toNat_inj, BitVec.toNat_ofNat, BitVec.toInt_eq_toNat_cond]
  split <;> omega

/-- One padded row's term: a data row of class l gives its augmented column, every other row gives 0. -/
theorem term_eq (X : Fin 1000000 → Fin 128 → EReal) (Y : Fin 1000000 → BitVec 32) (l : Fin 1000) (d : Fin 256)
    (n : Fin 1003520) :
    oh (padY Y n) l * xaug (padX X) n d
      = if h : n.val < 1000000 then
          (if (Y ⟨n.val, h⟩).toInt = (l.val : ℤ) then xaug X ⟨n.val, h⟩ d else 0)
        else 0 := by
  by_cases h : n.val < 1000000
  · have hx : xaug (padX X) n d = xaug X ⟨n.val, h⟩ d := by
      simp only [xaug, nrm, padX, dif_pos h]
    rw [dif_pos h, hx]
    simp only [oh, padY, dif_pos h, eq_ofNat_iff]
    split <;> simp
  · have hne : padY Y n ≠ BitVec.ofNat 32 l.val := by
      simp only [padY, dif_neg h]
      intro hc
      have h2 := congrArg BitVec.toNat hc
      have hl := l.isLt
      simp at h2
      omega
    simp [oh, hne, dif_neg h]

/-- The aggregate's column d at class l: the class's rows' augmented column d, summed. -/
theorem agg_class (X : Fin 1000000 → Fin 128 → EReal) (Y : Fin 1000000 → BitVec 32) (l : Fin 1000) (d : Fin 256) :
    agg (padX X) (padY Y) l d = ∑ i ∈ rowsOf Y l, xaug X i d := by
  rw [agg_eq_sum_mm]
  unfold mm
  rw [sum_row (fun n => oh (padY Y n) l * xaug (padX X) n d)]
  rw [Finset.sum_congr rfl fun n _ => term_eq X Y l d n]
  rw [sum_dite_lt (by norm_num) (fun i => if (Y i).toInt = (l.val : ℤ) then xaug X i d else 0)]
  rw [rowsOf, Finset.sum_filter]

/-- The class sizes agree: column 129 of every augmented row is 1. -/
theorem cnt_eq (X : Fin 1000000 → Fin 128 → EReal) (Y : Fin 1000000 → BitVec 32) (l : Fin 1000) :
    cntK (padX X) (padY Y) l = cntR Y l := by
  unfold cntK cntR
  rw [agg_class]
  refine Finset.sum_congr rfl fun i _ => ?_
  simp [xaug]

end Cert.SumIndex

end
-- ==== Proof.ClassAlgebra.lean ====
/-
  The per-class identity. For the rows i of one class with anchor a, over the reals,
    sum_i |x_i - a|^2 = sum_i |x_i|^2 - 2 a . (sum_i x_i) + (number of rows) |a|^2,
  by expanding the square and exchanging the two finite sums. On the extended reals the expansion needs every entry
  finite (distributivity fails at the infinities), which is where the precondition is used; the kernel's third summand
  |x_i|^2 - |x_i|^2 is then 0. A row of class l gathers anchor l itself: its label word read signed is l, which is not
  negative and below 1000, so neither the wrap nor the clamp moves it.
-/
import proofs.«417570_j76991583748730_3_alg».proof.Proof.Spec
import proofs.«417570_j76991583748730_3_alg».proof.Proof.SumIndex

noncomputable section

open scoped BigOperators

namespace Cert.ClassAlgebra

open Idealize.ShloMosaic Cert.Spec

/-- A label word that reads, signed, as the class number l gathers anchor row l. -/
theorem gidx_of_toInt {w : BitVec 32} {l : Fin 1000} (h : w.toInt = (l.val : ℤ)) : gidx w = l := by
  have hl := l.isLt
  -- the word read signed is l ≥ 0, so the signed comparison with 0 fails
  have hnot : w.slt 0#32 = false := by
    rw [Bool.eq_false_iff]
    intro hs
    rw [BitVec.slt_iff_toInt_lt] at hs
    simp at hs
    omega
  have hc : IntOp.cmpi .slt w 0#32 = 0#1 := by
    simp [IntOp.cmpi, hnot]
  -- the choice keeps w; its signed reading l is a natural number below 1000, which the clamp leaves alone
  apply Fin.ext
  simp only [gidx, hc, ValueIdx.select_zero, h]
  simp
  omega

/-- Over the reals: expanding the square and exchanging the two finite sums. -/
theorem real_identity {ι κ : Type} [Fintype κ] (R : Finset ι) (x : ι → κ → ℝ) (a : κ → ℝ) :
    ((∑ i ∈ R, ∑ e, x i e * x i e + ∑ i ∈ R, (∑ e, x i e * x i e - ∑ e, x i e * x i e))
        - 2 * ∑ e, a e * ∑ i ∈ R, x i e) + (∑ _i ∈ R, (1 : ℝ)) * ∑ e, a e * a e
      = ∑ i ∈ R, ∑ e, (x i e - a e) * (x i e - a e) := by
  -- one row: |x - a|^2 = |x|^2 - 2 a . x + |a|^2
  have h1 : ∀ i, ∑ e, (x i e - a e) * (x i e - a e)
      = ∑ e, x i e * x i e - 2 * ∑ e, a e * x i e + ∑ e, a e * a e := by
    intro i
    rw [Finset.mul_sum, ← Finset.sum_sub_distrib, ← Finset.sum_add_distrib]
    exact Finset.sum_congr rfl (fun e _ => by ring)
  -- sum_i a . x_i = a . (sum_i x_i)
  have h2 : ∑ i ∈ R, ∑ e, a e * x i e = ∑ e, a e * ∑ i ∈ R, x i e := by
    rw [Finset.sum_comm]
    exact Finset.sum_congr rfl (fun e _ => (Finset.mul_sum _ _ _).symm)
  simp only [h1, Finset.sum_add_distrib, Finset.sum_sub_distrib, sub_self, Finset.sum_const_zero, add_zero]
  rw [← Finset.mul_sum, h2, Finset.sum_mul]
  simp

/-- The inclusion of the reals in the extended reals carries a finite sum to the sum of the images. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The same identity on the extended reals, every entry being the image of a real. -/
theorem ereal_identity {ι κ : Type} [Fintype κ] (R : Finset ι) (x : ι → κ → ℝ) (a : κ → ℝ) :
    ((∑ i ∈ R, ∑ e, (x i e : EReal) * (x i e : EReal)
          + ∑ i ∈ R, (∑ e, (x i e : EReal) * (x i e : EReal) - ∑ e, (x i e : EReal) * (x i e : EReal)))
        - 2 * ∑ e, (a e : EReal) * ∑ i ∈ R, (x i e : EReal)) + (∑ _i ∈ R, (1 : EReal)) * ∑ e, (a e : EReal) * (a e : EReal)
      = ∑ i ∈ R, ∑ e, ((x i e : EReal) - (a e : EReal)) * ((x i e : EReal) - (a e : EReal)) := by
  have h := congrArg Real.toEReal (real_identity R x a)
  have h2 : ((2 : ℝ) : EReal) = 2 := by norm_cast
  simp only [EReal.coe_add, EReal.coe_sub, EReal.coe_mul, coe_sum, h2, EReal.coe_one] at h
  exact h

/-- An augmented row read at a data column. -/
theorem xaug_lt {N : Nat} (XP : Fin N → Fin 128 → EReal) (n : Fin N) (e : Fin 128) (h : e.val < 256) :
    xaug XP n ⟨e.val, h⟩ = XP n e := by
  unfold xaug
  rw [dif_pos e.isLt]

/-- Column 128 of an augmented row is the row's squared norm. -/
theorem xaug_128 {N : Nat} (XP : Fin N → Fin 128 → EReal) (n : Fin N) (h : 128 < 256) :
    xaug XP n ⟨128, h⟩ = nrm XP n := by
  simp [xaug]

/-- Column 129 of an augmented row is 1. -/
theorem xaug_129 {N : Nat} (XP : Fin N → Fin 128 → EReal) (n : Fin N) (h : 129 < 256) :
    xaug XP n ⟨129, h⟩ = 1 := by
  simp [xaug]

/-- Column 130 of an augmented row is the squared norm minus itself. -/
theorem xaug_130 {N : Nat} (XP : Fin N → Fin 128 → EReal) (n : Fin N) (h : 130 < 256) :
    xaug XP n ⟨130, h⟩ = nrm XP n - nrm XP n := by
  simp [xaug]

/-- With finite data and anchors the kernel's rebuilt per-class sum is the reference's. -/
theorem seg_eq (X : Fin 1000000 → Fin 128 → EReal) (A : Fin 1000 → Fin 128 → EReal) (Y : Fin 1000000 → BitVec 32)
    (hX : ∀ i e, ∃ r : ℝ, X i e = (r : EReal)) (hA : ∀ l e, ∃ r : ℝ, A l e = (r : EReal)) (l : Fin 1000) :
    segK A (padX X) (padY Y) l = segR X A Y l := by
  choose xr hxr using hX
  choose ar har using hA
  obtain rfl : X = fun i e => (xr i e : EReal) := funext fun i => funext fun e => hxr i e
  obtain rfl : A = fun l e => (ar l e : EReal) := funext fun l => funext fun e => har l e
  have hg : ∀ i ∈ rowsOf Y l, gidx (Y i) = l := fun i hi => gidx_of_toInt (Finset.mem_filter.mp hi).2
  have hR : segR (fun i e => (xr i e : EReal)) (fun l e => (ar l e : EReal)) Y l
      = ∑ i ∈ rowsOf Y l, ∑ e, ((xr i e : EReal) - (ar l e : EReal)) * ((xr i e : EReal) - (ar l e : EReal)) := by
    unfold segR
    exact Finset.sum_congr rfl (fun i hi => by simp only [dR, hg i hi])
  rw [hR]
  unfold segK
  simp only [Cert.SumIndex.agg_class, xaug_lt, xaug_128, xaug_129, xaug_130, nrm]
  exact ereal_identity (rowsOf Y l) xr (ar l)

end Cert.ClassAlgebra

end
-- ==== Proof.Finite.lean ====
/-
  The precondition read: every entry of the data and of the anchors is below +infinity in absolute value, hence a real number.
-/
import proofs.«417570_j76991583748730_3_alg».proof.Pre_finite_inputs
import proofs.«417570_j76991583748730_3_alg».proof.Proof.Spec
import Idealize.ShloMosaic.Lib.ReduceAll

noncomputable section

namespace Cert.Finite

open Idealize.ShloMosaic Idealize.ShloMosaic.ValueIdx

/-- An extended real whose absolute value `max x (-x)` is strictly below `+∞` (the pattern `0x7F800000`) is a real number. -/
private theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

/-- Under the precondition every entry of the two float inputs is a real number. -/
theorem finite_of_pre [Cert.Pre_finite_inputs.Facts]
    (a0 : FVec Ideal Cert.Pre_finite_inputs.S1000000x128 .f32) (a1 : FVec Ideal Cert.Pre_finite_inputs.S1000x128 .f32)
    (a2 : IVec Cert.Pre_finite_inputs.S1000000 32)
    (h : Cert.Pre_finite_inputs.fn (F := Ideal) a0 a1 a2 = fun _ => 1#1) :
    (∀ i, ∃ r : ℝ, a0 i = (r : EReal)) ∧ (∀ i, ∃ r : ℝ, a1 i = (r : EReal)) := by
  have h0 := congrFun h ValueIdx.ix0
  dsimp only [Cert.Pre_finite_inputs.fn] at h0
  haveI : Subsingleton Cert.Pre_finite_inputs.S_.Idx := ⟨fun a b => funext fun d => d.elim0⟩
  obtain ⟨h1, h2⟩ := IntOp.andi_eq_one.1 h0
  refine ⟨fun i => ?_, fun i => ?_⟩
  · exact real_of_abs_lt_top (a0 i) (Host.reduce_andi_all _ _ _ _ _ h1 i)
  · exact real_of_abs_lt_top (a1 i) (Host.reduce_andi_all _ _ _ _ _ h2 i)

end Cert.Finite

end
-- ==== Proof.LibScatterAddFlat.lean ====
/-
  The accumulating scatter of a flat operand: operand [N], start indices [n, 1], updates [n], no window axis, the
  operand's one axis inserted and named by the one component of the index vector. Update j lands on bin i exactly
  when its start index, read signed, equals i; an index outside [0, N) lands nowhere. So the scatter-add read at bin
  i is the operand there plus the sum of the updates whose index is i.
-/
import Idealize.ShloMosaic.PureOps.Ideal
import Idealize.ShloMosaic.Lib.ValueIdx

noncomputable section

open scoped BigOperators

namespace Cert.LibScatterAddFlat

open Idealize.ShloMosaic Idealize.ShloMosaic.ValueIdx

/-- A rank-1 index set is its one coordinate's. -/
def idxEquiv1 {n : Nat} : (⟨1, ![n]⟩ : Shape).Idx ≃ Fin n where
  toFun j := j 0
  invFun a := ix1 a
  left_inv j := (eq_ix1 j).symm
  right_inv a := rfl

/-- A sum over a rank-1 index set is the sum over the coordinate. -/
theorem sum_idx1 {M : Type*} [AddCommMonoid M] {n : Nat} (f : (⟨1, ![n]⟩ : Shape).Idx → M)
    (p : (⟨1, ![n]⟩ : Shape).Idx → Prop) [DecidablePred p] :
    ∑ j ∈ Finset.univ.filter p, f j = ∑ a ∈ Finset.univ.filter (fun a : Fin n => p (ix1 a)), f (ix1 a) := by
  refine Finset.sum_equiv (idxEquiv1 (n := n)) ?_ ?_
  · intro j
    simp only [Finset.mem_filter, Finset.mem_univ, true_and]
    rw [show ix1 (idxEquiv1 j) = j from (eq_ix1 j).symm]
  · intro j _
    rw [show ix1 (idxEquiv1 j) = j from (eq_ix1 j).symm]

/-- The dimension numbers of a scatter into a flat operand, one scalar update per start index. -/
abbrev flatDims (N n : Nat) (wf : ScatterDims.WF ⟨1, ![N]⟩ ⟨2, ![n, 1]⟩ ⟨1, ![n]⟩ [] [0] [0] 1) :
    ScatterDims ⟨1, ![N]⟩ ⟨2, ![n, 1]⟩ ⟨1, ![n]⟩ where
  updateWindowDims := []
  insertedWindowDims := [0]
  scatterDimsToOperandDims := [0]
  indexVectorDim := 1
  wf := wf

/-- The window of update j starts at its start index, read signed. -/
theorem flat_start {N n w : Nat} (wf : ScatterDims.WF ⟨1, ![N]⟩ ⟨2, ![n, 1]⟩ ⟨1, ![n]⟩ [] [0] [0] 1)
    (j : Fin n) (idx : IVec ⟨2, ![n, 1]⟩ w) (a : Fin 1) :
    (flatDims N n wf).start (ix1 j) idx a = (idx (ix2 j (0 : Fin 1))).toInt := by
  obtain rfl : a = 0 := Subsingleton.elim _ _
  unfold ScatterDims.start
  rw [dif_pos (show (0 : Fin 1) ∈ (flatDims N n wf).scatterDimsToOperandDims from List.mem_singleton.mpr rfl)]
  have hsi : (flatDims N n wf).siIdx (ix1 j) ⟨List.idxOf (0 : Fin 1) (flatDims N n wf).scatterDimsToOperandDims,
      List.idxOf_lt_length_iff.2 (List.mem_singleton.mpr rfl)⟩ = ix2 j (0 : Fin 1) := by
    funext b; refine Fin.ext ?_
    match b with
    | ⟨0, _⟩ => rfl
    | ⟨1, _⟩ => rfl
  rw [hsi]

/-- There is no window axis: the window coordinate is 0. -/
theorem flat_window {N n : Nat} (wf : ScatterDims.WF ⟨1, ![N]⟩ ⟨2, ![n, 1]⟩ ⟨1, ![n]⟩ [] [0] [0] 1)
    (j : Fin n) (a : Fin 1) : (flatDims N n wf).window (ix1 j) a = 0 := by
  obtain rfl : a = 0 := Subsingleton.elim _ _
  unfold ScatterDims.window
  rw [dif_neg]
  simp [ScatterDims.sKept, Shape.kept, List.mem_filter, List.mem_finRange]

/-- Update j lands on bin i exactly when its start index, read signed, is i. -/
theorem flat_resultIdx?_eq_some_iff {N n w : Nat} (wf : ScatterDims.WF ⟨1, ![N]⟩ ⟨2, ![n, 1]⟩ ⟨1, ![n]⟩ [] [0] [0] 1)
    (j : Fin n) (idx : IVec ⟨2, ![n, 1]⟩ w) (i : Fin N) :
    (flatDims N n wf).resultIdx? (ix1 j) idx = some (ix1 i) ↔ (idx (ix2 j (0 : Fin 1))).toInt = (i.val : ℤ) := by
  unfold ScatterDims.resultIdx?
  have hs : ∀ a : Fin 1, (flatDims N n wf).start (ix1 j) idx a + ((flatDims N n wf).window (ix1 j) a : ℤ)
      = (idx (ix2 j (0 : Fin 1))).toInt := by
    intro a; rw [flat_start, flat_window]; simp
  constructor
  · intro h
    split at h
    · rename_i hall
      have h0 := congrFun (Option.some.inj h) 0
      have hv := congrArg Fin.val h0
      simp only at hv
      have := hall 0
      rw [hs] at this hv
      change ((idx (ix2 j (0 : Fin 1))).toInt.toNat) = i.val at hv
      omega
    · exact absurd h (by simp)
  · intro h
    have hall : ∀ a, 0 ≤ (flatDims N n wf).start (ix1 j) idx a + ((flatDims N n wf).window (ix1 j) a : ℤ) ∧
        (flatDims N n wf).start (ix1 j) idx a + ((flatDims N n wf).window (ix1 j) a : ℤ) < ((⟨1, ![N]⟩ : Shape).size a : ℤ) := by
      intro a
      obtain rfl : a = 0 := Subsingleton.elim _ _
      rw [hs, h]
      have := i.isLt
      constructor
      · omega
      · change (i.val : ℤ) < (N : ℤ); omega
    rw [dif_pos hall]
    congr 1
    funext a
    obtain rfl : a = 0 := Subsingleton.elim _ _
    refine Fin.ext ?_
    change ((flatDims N n wf).start (ix1 j) idx 0 + ((flatDims N n wf).window (ix1 j) 0 : ℤ)).toNat = i.val
    rw [hs, h]; simp

/-- THE FLAT SCATTER-ADD READ AT BIN i: the operand there plus the sum of the updates whose start index is i. -/
theorem scatterAdd_flat_apply {N n w : Nat} {φ : FTy} (wf : ScatterDims.WF ⟨1, ![N]⟩ ⟨2, ![n, 1]⟩ ⟨1, ![n]⟩ [] [0] [0] 1)
    (x : FVec Ideal ⟨1, ![N]⟩ φ) (idx : IVec ⟨2, ![n, 1]⟩ w) (upd : FVec Ideal ⟨1, ![n]⟩ φ) (i : Fin N) :
    Host.scatterAdd (flatDims N n wf) x idx upd (ix1 i)
      = x (ix1 i) + ∑ j ∈ Finset.univ.filter (fun j : Fin n => (idx (ix2 j (0 : Fin 1))).toInt = (i.val : ℤ)), upd (ix1 j) := by
  unfold Host.scatterAdd
  rw [Ideal.hostScatterAdd_def]
  unfold Ideal.hostScatterAdd
  congr 1
  rw [sum_idx1]
  refine Finset.sum_congr ?_ (fun _ _ => rfl)
  ext j
  simp only [Finset.mem_filter, Finset.mem_univ, true_and]
  exact flat_resultIdx?_eq_some_iff wf j idx i

end Cert.LibScatterAddFlat

end
-- ==== Proof.LibGatherRows.lean ====
/- The gather of whole rows: operand [N, C] (or [N, A, B]), start indices [n, 1], result [n, C] (or [n, A, B]); the operand's axis 0 is collapsed and named by the one component of the index vector, the other axes are offset axes taken whole. Result row j is the operand's row at start index j, read signed and clamped into [0, N - 1]. -/
import Idealize.ShloMosaic.PureOps.Ideal
import Idealize.ShloMosaic.Lib.ValueIdx

noncomputable section

open scoped BigOperators

namespace Cert.LibGatherRows

open Idealize.ShloMosaic Idealize.ShloMosaic.ValueIdx

/-- An entry of a list read through two equations: of the lists and of the positions. -/
theorem getElem_of_eq_of_eq {β : Type} {l l' : List β} (h : l = l') {i i' : Nat} (hi : i = i') (w : i < l.length) :
    l[i] = l'[i']'(by subst h; subst hi; exact w) := by
  subst h; subst hi; rfl

/-- THE ROW GATHER READ AT (j, c), one offset axis. On axis 0 (collapsed, named by the start index map) the operand
    coordinate is the start word read signed and clamped so that a slice of size 1 fits; on axis 1 (an offset axis, not
    named by the start index map) the start is 0 and the offset coordinate is the result's coordinate. -/
theorem gather_rows2_apply {α : Type} {N n C w : Nat} (hN : 0 < N) (d : GatherDims ⟨2, ![N, C]⟩ ⟨2, ![n, 1]⟩ ⟨2, ![n, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (x : (⟨2, ![N, C]⟩ : Shape).Idx → α) (idx : IVec ⟨2, ![n, 1]⟩ w) (j : Fin n) (c : Fin C) :
    Host.gather d x idx (ix2 j c)
      = x (ix2 (⟨min (idx (ix2 j (0 : Fin 1))).toInt.toNat (N - 1), by omega⟩ : Fin N) c) := by
  unfold Host.gather
  congr 1
  funext a
  apply Fin.ext
  have hb : ∀ a : Fin 2, a ∉ d.operandBatchingDims := fun a => by rw [hob]; exact List.not_mem_nil
  -- a batch axis of the result is its axis 0 (the one axis that is not an offset axis)
  have ebatch : ∀ X : Fin 2, X ∈ d.batchDims → ((ix2 j c : (⟨2, ![n, C]⟩ : Shape).Idx) X).val = j.val := by
    intro X hX
    have hX0 : X = 0 := by
      simp only [GatherDims.batchDims, Shape.kept, hoff, List.mem_filter] at hX
      have h1 : X ≠ 1 := by simpa using hX.2
      match X with
      | ⟨0, _⟩ => rfl
      | ⟨1, _⟩ => exact absurd rfl h1
    subst hX0; rfl
  -- an offset axis of the result is its axis 1
  have eoff : ∀ X : Fin 2, X ∈ d.offsetDims → ((ix2 j c : (⟨2, ![n, C]⟩ : Shape).Idx) X).val = c.val := by
    intro X hX
    have hX1 : X = 1 := by rw [hoff] at hX; exact List.mem_singleton.mp hX
    subst hX1; rfl
  match a with
  | ⟨0, _⟩ =>
    -- the collapsed axis: the clamped start, no batching and no offset coordinate
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 j c) idx 0 + d.batchCoord (ix2 j c) 0 + d.offCoord (ix2 j c) 0
      = min (idx (ix2 j (0 : Fin 1))).toInt.toNat (N - 1)
    rw [GatherDims.batchCoord_eq_zero _ _ _ (hb 0), GatherDims.offCoord_eq_zero _ _ _ hk]
    simp only [Nat.add_zero]
    unfold GatherDims.start
    rw [dif_pos hm]
    show min (idx _).toInt.toNat (N - d.sliceSizes 0) = min (idx (ix2 j (0 : Fin 1))).toInt.toNat (N - 1)
    rw [hsl]
    congr 3
    congr 1
    funext b
    apply Fin.ext
    match b with
    | ⟨0, _⟩ =>
      -- the start indices' axis 0 is read at the result's batch coordinate
      unfold GatherDims.siIdx
      rw [dif_neg (by rw [hivd]; simp)]
      unfold GatherDims.siCoord
      simp only [Fin.val_cast]
      exact ebatch _ (List.getElem_mem _)
    | ⟨1, _⟩ =>
      -- the index vector's axis is read at the component's position in the start index map, the first
      unfold GatherDims.siIdx
      rw [dif_pos (by rw [hivd])]
      show List.idxOf (0 : Fin 2) d.startIndexMap = 0
      rw [hsim]; simp
  | ⟨1, _⟩ =>
    -- an offset axis: no start (the start index map does not name it), no batching coordinate, the result's coordinate
    have hk : (1 : Fin 2) ∈ d.sKept := by rw [GatherDims.mem_sKept, hcoll, hob]; simp
    have hm : (1 : Fin 2) ∉ d.startIndexMap := by rw [hsim]; simp
    show d.start (ix2 j c) idx 1 + d.batchCoord (ix2 j c) 1 + d.offCoord (ix2 j c) 1 = c.val
    rw [GatherDims.batchCoord_eq_zero _ _ _ (hb 1)]
    unfold GatherDims.start GatherDims.offCoord
    rw [dif_neg hm, dif_pos hk]
    simp only [Nat.zero_add]
    exact eoff _ (List.getElem_mem _)

/-- The same with two offset axes: the operand's kept axes 1 and 2 are read, in order, at the result's offset axes 1
    and 2. -/
theorem gather_rows3_apply {α : Type} {N n A B w : Nat} (hN : 0 < N) (d : GatherDims ⟨3, ![N, A, B]⟩ ⟨2, ![n, 1]⟩ ⟨3, ![n, A, B]⟩)
    (hoff : d.offsetDims = [1, 2]) (hcoll : d.collapsedSliceDims = [0]) (hob : d.operandBatchingDims = [])
    (hsb : d.startIndicesBatchingDims = []) (hsim : d.startIndexMap = [0]) (hivd : d.indexVectorDim = 1)
    (x : (⟨3, ![N, A, B]⟩ : Shape).Idx → α) (idx : IVec ⟨2, ![n, 1]⟩ w) (j : Fin n) (a : Fin A) (b : Fin B) :
    Host.gather d x idx (ix3 j a b)
      = x (ix3 (⟨min (idx (ix2 j (0 : Fin 1))).toInt.toNat (N - 1), by omega⟩ : Fin N) a b) := by
  unfold Host.gather
  congr 1
  funext q
  apply Fin.ext
  have hb : ∀ q : Fin 3, q ∉ d.operandBatchingDims := fun q => by rw [hob]; exact List.not_mem_nil
  -- the operand's axes that are neither collapsed nor batching: 1 and 2, in order
  have hsk : d.sKept = [1, 2] := by
    simp only [GatherDims.sKept, Shape.kept, hcoll, hob]
    rfl
  -- a batch axis of the result is its axis 0 (the one axis that is not an offset axis)
  have ebatch : ∀ X : Fin 3, X ∈ d.batchDims → ((ix3 j a b : (⟨3, ![n, A, B]⟩ : Shape).Idx) X).val = j.val := by
    intro X hX
    have hX0 : X = 0 := by
      simp only [GatherDims.batchDims, Shape.kept, hoff, List.mem_filter] at hX
      have h12 : X ≠ 1 ∧ X ≠ 2 := by simpa using hX.2
      match X with
      | ⟨0, _⟩ => rfl
      | ⟨1, _⟩ => exact absurd rfl h12.1
      | ⟨2, _⟩ => exact absurd rfl h12.2
    subst hX0; rfl
  -- the result's coordinates on its axes 1 and 2
  have e1 : ∀ X : Fin 3, X = 1 → ((ix3 j a b : (⟨3, ![n, A, B]⟩ : Shape).Idx) X).val = a.val := by
    intro X hX; subst hX; rfl
  have e2 : ∀ X : Fin 3, X = 2 → ((ix3 j a b : (⟨3, ![n, A, B]⟩ : Shape).Idx) X).val = b.val := by
    intro X hX; subst hX; rfl
  have hm : ∀ q : Fin 3, q ≠ 0 → q ∉ d.startIndexMap := fun q hq => by
    rw [hsim]; exact fun h => hq (List.mem_singleton.mp h)
  match q with
  | ⟨0, _⟩ =>
    -- the collapsed axis: the clamped start, no batching and no offset coordinate
    have hk : (0 : Fin 3) ∉ d.sKept := by rw [GatherDims.mem_sKept, hcoll]; simp
    have hm0 : (0 : Fin 3) ∈ d.startIndexMap := by rw [hsim]; exact List.mem_singleton.mpr rfl
    have hsl : d.sliceSizes 0 = 1 := d.slice_collapsed 0 (by rw [hcoll]; exact List.mem_singleton.mpr rfl)
    show d.start (ix3 j a b) idx 0 + d.batchCoord (ix3 j a b) 0 + d.offCoord (ix3 j a b) 0
      = min (idx (ix2 j (0 : Fin 1))).toInt.toNat (N - 1)
    rw [GatherDims.batchCoord_eq_zero _ _ _ (hb 0), GatherDims.offCoord_eq_zero _ _ _ hk]
    simp only [Nat.add_zero]
    unfold GatherDims.start
    rw [dif_pos hm0]
    show min (idx _).toInt.toNat (N - d.sliceSizes 0) = min (idx (ix2 j (0 : Fin 1))).toInt.toNat (N - 1)
    rw [hsl]
    congr 3
    congr 1
    funext p
    apply Fin.ext
    match p with
    | ⟨0, _⟩ =>
      -- the start indices' axis 0 is read at the result's batch coordinate
      unfold GatherDims.siIdx
      rw [dif_neg (by rw [hivd]; simp)]
      unfold GatherDims.siCoord
      simp only [Fin.val_cast]
      exact ebatch _ (List.getElem_mem _)
    | ⟨1, _⟩ =>
      -- the index vector's axis is read at the component's position in the start index map, the first
      unfold GatherDims.siIdx
      rw [dif_pos (by rw [hivd])]
      show List.idxOf (0 : Fin 3) d.startIndexMap = 0
      rw [hsim]; simp
  | ⟨1, _⟩ =>
    -- the first offset axis: no start, no batching coordinate, the result's coordinate on its axis 1
    have hk : (1 : Fin 3) ∈ d.sKept := by rw [hsk]; simp
    show d.start (ix3 j a b) idx 1 + d.batchCoord (ix3 j a b) 1 + d.offCoord (ix3 j a b) 1 = a.val
    rw [GatherDims.batchCoord_eq_zero _ _ _ (hb 1)]
    unfold GatherDims.start GatherDims.offCoord
    rw [dif_neg (hm 1 (by decide)), dif_pos hk]
    simp only [Nat.zero_add]
    exact e1 _ ((getElem_of_eq_of_eq hoff (show List.idxOf (1 : Fin 3) d.sKept = 0 by rw [hsk]; rfl) _).trans rfl)
  | ⟨2, _⟩ =>
    -- the second offset axis: the result's coordinate on its axis 2
    have hk : (2 : Fin 3) ∈ d.sKept := by rw [hsk]; simp
    show d.start (ix3 j a b) idx 2 + d.batchCoord (ix3 j a b) 2 + d.offCoord (ix3 j a b) 2 = b.val
    rw [GatherDims.batchCoord_eq_zero _ _ _ (hb 2)]
    unfold GatherDims.start GatherDims.offCoord
    rw [dif_neg (hm 2 (by decide)), dif_pos hk]
    simp only [Nat.zero_add]
    exact e2 _ ((getElem_of_eq_of_eq hoff (show List.idxOf (2 : Fin 3) d.sKept = 1 by rw [hsk]; rfl) _).trans rfl)

end Cert.LibGatherRows

end
-- ==== Proof.RefValue.lean ====
/-
  The reference read against the specification. Its three stages whose element depends on an operand's values are read by
  hand: the gather of anchor rows (row i of the result is the anchor row at the wrapped label word read signed and
  clamped) and the two accumulating scatters into 1000 bins (bin l receives the updates whose label word, read signed,
  is l; a word outside 0..999 lands nowhere). Every other stage is read by its generated lemma.
-/
import proofs.«417570_j76991583748730_3_alg».proof.Proof.RefRead
import proofs.«417570_j76991583748730_3_alg».proof.Proof.Spec
import proofs.«417570_j76991583748730_3_alg».proof.Proof.LibScatterAddFlat
import proofs.«417570_j76991583748730_3_alg».proof.Proof.LibGatherRows

noncomputable section

open scoped BigOperators

namespace Cert.RefSide

open Idealize.ShloMosaic Idealize.ShloMosaic.ValueIdx Cert.ReferenceIdeal

section Stages

open Cert.ReferenceIdeal.ReadP

variable [Cert.ReferenceIdeal.Facts]

/-- The rank-1 index read off a one-column index of the start words is the row's. -/
theorem idx15_ix2 (j : Fin 1000000) : idx_main_v15 (ix2 j (0 : Fin 1)) = ix1 j := by
  funext a; match a with | ⟨0, _⟩ => rfl

theorem idx11_ix2 (j : Fin 1000000) : idx_main_v11 (ix2 j (0 : Fin 1)) = ix1 j := by
  funext a; match a with | ⟨0, _⟩ => rfl

theorem idx5_ix2 (j : Fin 1000000) : idx_main_v5 (ix2 j (0 : Fin 1)) = ix1 j := by
  funext a; match a with | ⟨0, _⟩ => rfl

theorem idx9_ix1 (j : Fin 1000000) (k : Fin 128) : idx_main_v9 (ix1 j) k = ix2 j k := by
  funext a; match a with | ⟨0, _⟩ => rfl | ⟨1, _⟩ => rfl

/-- The broadcast zero operand of the scatters. -/
theorem v14_at (i : S1000.Idx) : val_main_v14 (F := Ideal) i = 0 := by
  rw [val_main_v14_apply, val_main_cst_3_apply, Ideal.ofBits_def, Cert.Spec.ofBits_zero_f32]

theorem v10_at (i : S1000.Idx) : val_main_v10 (F := Ideal) i = 0 := by
  rw [val_main_v10_apply, val_main_cst_1_apply, Ideal.ofBits_def, Cert.Spec.ofBits_zero_f32]

theorem v13_at (i : S1000000.Idx) : val_main_v13 (F := Ideal) i = 1 := by
  rw [val_main_v13_apply, val_main_cst_2_apply, Ideal.ofBits_def, Cert.Spec.ofBits_one_f32]

/-- The class size: bin l of the scatter of ones. -/
theorem cnt_eq (x2 : (⟨S1000000, .i32⟩ : BufTy).Contents (Elt Ideal)) (l : Fin 1000) :
    val_main_v16 (F := Ideal) x2 (ix1 l) = Cert.Spec.cntR (Cert.Spec.vecw x2) l := by
  unfold val_main_v16
  show Host.scatterAdd (Cert.LibScatterAddFlat.flatDims 1000 1000000 _) _ _ _ (ix1 l) = _
  rw [Cert.LibScatterAddFlat.scatterAdd_flat_apply, v14_at, zero_add]
  unfold Cert.Spec.cntR Cert.Spec.rowsOf
  refine Finset.sum_congr ?_ (fun j _ => v13_at _)
  ext j
  simp only [Finset.mem_filter, Finset.mem_univ, true_and]
  rw [val_main_v15_apply, idx15_ix2]

/-- The start word of the gather: the label word, wrapped by 1000 when negative. -/
theorem start_eq (x2 : (⟨S1000000, .i32⟩ : BufTy).Contents (Elt Ideal)) (j : Fin 1000000) :
    val_main_v5 (F := Ideal) x2 (ix2 j (0 : Fin 1))
      = Scalar.select (IntOp.cmpi .slt (x2 (ix1 j)) 0#32) (x2 (ix1 j) + 1000#32) (x2 (ix1 j)) := by
  rw [val_main_v5_apply, idx5_ix2]
  rfl

/-- The gathered anchor entry. -/
theorem gath_eq (x1 : (⟨S1000x128, .f32⟩ : BufTy).Contents (Elt Ideal))
    (x2 : (⟨S1000000, .i32⟩ : BufTy).Contents (Elt Ideal)) (j : Fin 1000000) (k : Fin 128) :
    val_main_v6 (F := Ideal) x1 x2 (ix2 j k) = x1 (ix2 (Cert.Spec.gidx (x2 (ix1 j))) k) := by
  unfold val_main_v6
  rw [Cert.LibGatherRows.gather_rows2_apply (by norm_num) _ rfl rfl rfl rfl rfl rfl]
  refine congrArg x1 ?_
  refine congrArg (fun a => ix2 a k) ?_
  apply Fin.ext
  show min (val_main_v5 (F := Ideal) x2 (ix2 j (0 : Fin 1))).toInt.toNat (1000 - 1) = _
  rw [start_eq]
  rfl

/-- Row j's squared distance to its gathered anchor. -/
theorem row_eq (x0 : (⟨S1000000x128, .f32⟩ : BufTy).Contents (Elt Ideal)) (x1 : (⟨S1000x128, .f32⟩ : BufTy).Contents (Elt Ideal))
    (x2 : (⟨S1000000, .i32⟩ : BufTy).Contents (Elt Ideal)) (j : Fin 1000000) :
    val_main_v9 (F := Ideal) x0 x1 x2 (ix1 j)
      = Cert.Spec.dR (Cert.Spec.mat x0) (Cert.Spec.mat x1) (Cert.Spec.vecw x2) j := by
  rw [val_main_v9_apply, val_main_cst_apply, Ideal.ofBits_def, Cert.Spec.ofBits_zero_f32, zero_add]
  unfold Cert.Spec.dR
  refine Finset.sum_congr rfl (fun k _ => ?_)
  rw [idx9_ix1, val_main_v8_apply, val_main_v7_apply, Ideal.mulf_def, Ideal.subf_def, gath_eq]

/-- The class's sum of squared distances: bin l of the scatter of the rows' distances. -/
theorem seg_eq (x0 : (⟨S1000000x128, .f32⟩ : BufTy).Contents (Elt Ideal)) (x1 : (⟨S1000x128, .f32⟩ : BufTy).Contents (Elt Ideal))
    (x2 : (⟨S1000000, .i32⟩ : BufTy).Contents (Elt Ideal)) (l : Fin 1000) :
    val_main_v12 (F := Ideal) x0 x1 x2 (ix1 l)
      = Cert.Spec.segR (Cert.Spec.mat x0) (Cert.Spec.mat x1) (Cert.Spec.vecw x2) l := by
  unfold val_main_v12
  show Host.scatterAdd (Cert.LibScatterAddFlat.flatDims 1000 1000000 _) _ _ _ (ix1 l) = _
  rw [Cert.LibScatterAddFlat.scatterAdd_flat_apply, v10_at, zero_add]
  unfold Cert.Spec.segR Cert.Spec.rowsOf
  refine Finset.sum_congr ?_ (fun j _ => row_eq x0 x1 x2 j)
  ext j
  simp only [Finset.mem_filter, Finset.mem_univ, true_and]
  rw [val_main_v11_apply, idx11_ix2]

/-- One class's term. -/
theorem term_eq (x0 : (⟨S1000000x128, .f32⟩ : BufTy).Contents (Elt Ideal)) (x1 : (⟨S1000x128, .f32⟩ : BufTy).Contents (Elt Ideal))
    (x2 : (⟨S1000000, .i32⟩ : BufTy).Contents (Elt Ideal)) (l : Fin 1000) :
    val_main_v21 (F := Ideal) x0 x1 x2 (ix1 l)
      = Cert.Spec.pc (Cert.Spec.segR (Cert.Spec.mat x0) (Cert.Spec.mat x1) (Cert.Spec.vecw x2) l)
          (Cert.Spec.cntR (Cert.Spec.vecw x2) l) := by
  rw [val_main_v21_apply, val_main_v18_apply, val_main_v20_apply, val_main_v19_apply, val_main_call0_v1_apply,
    val_main_call0_v0_apply, val_main_cst_5_apply, val_main_v17_apply, val_main_cst_4_apply,
    Ideal.cmpf_def, Ideal.hostDivf_def, Ideal.mulf_def, Ideal.ofBits_def, Cert.Spec.ofBits_zero_f32,
    cnt_eq, seg_eq]
  rfl

end Stages

/-- The reference's result is the shared closing of its per-class sums and class sizes. -/
theorem value [Cert.ReferenceIdeal.Facts] (x0 : (⟨S1000000x128, .f32⟩ : BufTy).Contents (Elt Ideal)) (x1 : (⟨S1000x128, .f32⟩ : BufTy).Contents (Elt Ideal))
    (x2 : (⟨S1000000, .i32⟩ : BufTy).Contents (Elt Ideal)) :
    Cert.ReferenceIdeal.ReadP.val_main_v22 (F := Ideal) x0 x1 x2
      = fun _ => Cert.Spec.res (Cert.Spec.segR (Cert.Spec.mat x0) (Cert.Spec.mat x1) (Cert.Spec.vecw x2)) (Cert.Spec.cntR (Cert.Spec.vecw x2)) := by
  funext i
  rw [ReadP.val_main_v22_apply, ReadP.val_main_cst_6_apply, Ideal.ofBits_def, Cert.Spec.ofBits_zero_f32, zero_add]
  unfold Cert.Spec.res
  refine Fintype.sum_equiv (Cert.LibScatterAddFlat.idxEquiv1 (n := 1000)) _ _ (fun j => ?_)
  rw [eq_ix1 j]
  exact term_eq x0 x1 x2 (j 0)

end Cert.RefSide

end
-- ==== Proof.KernelPrefix.lean ====
/-
  The host operations before the region: the data matrix with 3520 zero rows appended, and the label words with 3520
  words of all ones appended, laid out as one row.
-/
import proofs.«417570_j76991583748730_3_alg».proof.Proof.Gen.KernelIdeal.Frame
import proofs.«417570_j76991583748730_3_alg».proof.Proof.Spec
import Idealize.ShloMosaic.Lib.StableHlo.Run
import Idealize.ShloMosaic.Lib.Pipeline.Value

noncomputable section

namespace Cert.KernelIdeal.Prefix

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-- The padded data as the host operations build it: the data concatenated along the rows with the broadcast zero. -/
private theorem v1_eq (c : Dev nD) :
    (V m c main_v1 : S1003520x128.Idx → EReal)
      = concatenate S1003520x128 0 [⟨S1000000x128, (m ((c : Thread nD τ).loc main_arg0) : S1000000x128.Idx → EReal)⟩,
          ⟨S3520x128, broadcastInDim S3520x128 ![] bcast_S_S3520x128 (constant (F := Ideal) S_ .f32 0x00000000#32)⟩]
          concatenates_S1000000x128_S3520x128_S1003520x128_d0 := by
  show StableHlo.after hostOps0 (fun b => m (c, b)) (Proc.devRef .tc main_v1) = _
  after_results

/-- The padded label words as the host operations build them: the label words concatenated with the broadcast word of
    all ones, then laid out as one row. -/
private theorem v4_eq (c : Dev nD) :
    (V m c main_v4 : S1x1003520.Idx → BitVec 32)
      = shapeCast S1x1003520 (concatenate S1003520 0 [⟨S1000000, (m ((c : Thread nD τ).loc main_arg2) : S1000000.Idx → BitVec 32)⟩,
          ⟨S3520, broadcastInDim S3520 ![] bcast_S_S3520 (constantI S_ 32 4294967295#32)⟩]
          concatenates_S1000000_S3520_S1003520_d0) shapeCasts_S1003520_S1x1003520 := by
  show StableHlo.after hostOps0 (fun b => m (c, b)) (Proc.devRef .tc main_v4) = _
  after_results
  rfl

/-- The padded data as the region finds it: the data rows, then zero rows. -/
theorem padded_x (c : Dev nD) (n : Fin 1003520) (e : Fin 128) :
    (V m c main_v1 : S1003520x128.Idx → EReal) (ix2 n e)
      = Cert.Spec.padX (Cert.Spec.mat (m ((c : Thread nD τ).loc main_arg0))) n e := by
  refine (congrFun (v1_eq m c) (ix2 n e)).trans ?_
  unfold Cert.Spec.padX
  by_cases h : n.val < 1000000
  · rw [dif_pos h]
    exact concatenate_pair_apply_left (t := S1003520x128) (s₁ := S1000000x128) (s₂ := S3520x128) (0 : Fin 2) _ _ _
      (ix2 n e) rfl (ix2 (⟨n.val, h⟩ : Fin 1000000) e) (by
        intro b
        match b with
        | ⟨0, _⟩ => rfl
        | ⟨1, _⟩ => rfl)
  · rw [dif_neg h]
    refine (concatenate_pair_apply_right (t := S1003520x128) (s₁ := S1000000x128) (s₂ := S3520x128) (0 : Fin 2) _ _ _
      (ix2 n e) rfl rfl (ix2 (⟨n.val - 1000000, by have := n.isLt; omega⟩ : Fin 3520) e) (by
        intro b hb
        match b with
        | ⟨0, _⟩ => exact absurd rfl hb
        | ⟨1, _⟩ => rfl) (by show n.val - 1000000 + 1000000 = n.val; omega)).trans ?_
    show Ideal.ofBits .f32 0x00000000#32 = 0
    exact Cert.Spec.ofBits_zero_f32

/-- The padded label words as the region finds them: the label words, then words of all ones. -/
theorem padded_y (c : Dev nD) (n : Fin 1003520) :
    (V m c main_v4 : S1x1003520.Idx → BitVec 32) (ix2 (0 : Fin 1) n)
      = Cert.Spec.padY (Cert.Spec.vecw (m ((c : Thread nD τ).loc main_arg2))) n := by
  refine (congrFun (v4_eq m c) (ix2 (0 : Fin 1) n)).trans ?_
  refine (shapeCast_apply _ shapeCasts_S1003520_S1x1003520 (ix2 (0 : Fin 1) n) (ix1 n) (by
    rw [Shape.rowMajor_val_two, Shape.rowMajor_val_one]; show n.val = 0 * 1003520 + n.val; omega)).trans ?_
  unfold Cert.Spec.padY
  by_cases h : n.val < 1000000
  · rw [dif_pos h]
    exact concatenate_pair_apply_left (t := S1003520) (s₁ := S1000000) (s₂ := S3520) (0 : Fin 1) _ _ _
      (ix1 n) rfl (ix1 (⟨n.val, h⟩ : Fin 1000000)) (by
        intro b
        match b with
        | ⟨0, _⟩ => rfl)
  · rw [dif_neg h]
    refine (concatenate_pair_apply_right (t := S1003520) (s₁ := S1000000) (s₂ := S3520) (0 : Fin 1) _ _ _
      (ix1 n) rfl rfl (ix1 (⟨n.val - 1000000, by have := n.isLt; omega⟩ : Fin 3520)) (by
        intro b hb
        match b with
        | ⟨0, _⟩ => exact absurd rfl hb) (by show n.val - 1000000 + 1000000 = n.val; omega)).trans ?_
    rfl

end Cert.KernelIdeal.Prefix

end
-- ==== Proof.KernelBody.lean ====
/-
  What one run of the kernel body leaves behind, case by case, as values.

  At a core's first block the body stores the zero block, the class table and the column table, then loads them back
  and stores (zero block) + (label matches) x (augmented rows): the output block ends at that sum, the two tables at
  themselves. At every other block it stores nothing into the tables and the output block ends at what it held plus
  the block's product, the tables being read as the block before left them. Each store covers its whole buffer, so
  what is read back after it is the stored value.
-/
import proofs.«417570_j76991583748730_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Body

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First block of a core: the class table is left at the stored table. -/
theorem sout_A_0 (c : Dev nD) (i : grid0.Coords) (a2 : Memref sig .tc .vmem S2048x128 .f32) (h2 : a2.IsWhole) (a3 : Memref sig .tc .vmem S1x2048 .i32) (h3 : a3.IsWhole) (a4 : Memref sig .tc .vmem S1x1000x256 .f32) (h4 : a4.IsWhole) (a5 : Memref sig .tc .vmem S1000x2048 .i32) (h5 : a5.IsWhole) (a6 : Memref sig .tc .vmem S2048x128 .i32) (h6 : a6.IsWhole) (hc : cond0_0 i)
    (x0 : Vec F S2048x128 .f32) (x1 : Vec F S1x2048 .i32) :
    sout0_A_0 (F := F) c i a2 h2 a3 h3 a4 h4 a5 h5 a6 h6 hc x0 x1 = k0_pay3 := by
  unfold sout0_A_0
  rw [View.read_writes_eq_canon _ _ _ (scover0_A_0 c i a2 h2 a3 h3 a4 h4 a5 h5 a6 h6 hc x0 x1)]
  unfold kernelRun0_A
  dsimp only
  sl_unfold_words
  rw [View.canon_unit_zero (S := S1000x2048) hz2]

/-- First block of a core: the column table is left at the stored table. -/
theorem sout_A_1 (c : Dev nD) (i : grid0.Coords) (a2 : Memref sig .tc .vmem S2048x128 .f32) (h2 : a2.IsWhole) (a3 : Memref sig .tc .vmem S1x2048 .i32) (h3 : a3.IsWhole) (a4 : Memref sig .tc .vmem S1x1000x256 .f32) (h4 : a4.IsWhole) (a5 : Memref sig .tc .vmem S1000x2048 .i32) (h5 : a5.IsWhole) (a6 : Memref sig .tc .vmem S2048x128 .i32) (h6 : a6.IsWhole) (hc : cond0_0 i)
    (x0 : Vec F S2048x128 .f32) (x1 : Vec F S1x2048 .i32) :
    sout0_A_1 (F := F) c i a2 h2 a3 h3 a4 h4 a5 h5 a6 h6 hc x0 x1 = k0_pay4 := by
  unfold sout0_A_1
  rw [View.read_writes_eq_canon _ _ _ (scover0_A_1 c i a2 h2 a3 h3 a4 h4 a5 h5 a6 h6 hc x0 x1)]
  unfold kernelRun0_A
  dsimp only
  sl_unfold_words
  rw [View.canon_unit_zero (S := S2048x128) hz2]

/-- First block of a core: the output block is left at the zero block plus the block's product, the product formed
    from the tables just stored. -/
theorem out_A_2 (c : Dev nD) (i : grid0.Coords) (a2 : Memref sig .tc .vmem S2048x128 .f32) (h2 : a2.IsWhole) (a3 : Memref sig .tc .vmem S1x2048 .i32) (h3 : a3.IsWhole) (a4 : Memref sig .tc .vmem S1x1000x256 .f32) (h4 : a4.IsWhole) (a5 : Memref sig .tc .vmem S1000x2048 .i32) (h5 : a5.IsWhole) (a6 : Memref sig .tc .vmem S2048x128 .i32) (h6 : a6.IsWhole) (hc : cond0_0 i)
    (x0 : Vec F S2048x128 .f32) (x1 : Vec F S1x2048 .i32) :
    out0_A_2 (F := F) c i a2 h2 a3 h3 a4 h4 a5 h5 a6 h6 hc x0 x1 = k0_pay1 (k0_pay5 x0 k0_pay4) (k0_pay6 x1 k0_pay3) k0_pay2 := by
  unfold out0_A_2
  rw [View.read_writes_eq_canon _ _ _ (cover0_A_2 c i a2 h2 a3 h3 a4 h4 a5 h5 a6 h6 hc x0 x1)]
  unfold kernelRun0_A
  dsimp only
  sl_unfold_words
  rw [View.canon_cons_unit_zero (S := S1x1000x256) hz3]
  simp only [View.readAt_eq_ld, h2.read_unread, h3.read_unread, View.ld_unit_zero (S := S2048x128) hz2,
    View.ld_unit_zero (S := S1x2048) hz2, View.readCov_unit_zero (S := S2048x128) _ hz2,
    View.readCov_unit_zero (S := S1000x2048) _ hz2, View.readCov_unit_zero (S := S1x1000x256) _ hz3]

/-- Any other block: the output block is left at what it held plus the block's product, the product formed from the
    tables as the block before left them. -/
theorem out_B_2 (c : Dev nD) (i : grid0.Coords) (a2 : Memref sig .tc .vmem S2048x128 .f32) (h2 : a2.IsWhole) (a3 : Memref sig .tc .vmem S1x2048 .i32) (h3 : a3.IsWhole) (a4 : Memref sig .tc .vmem S1x1000x256 .f32) (h4 : a4.IsWhole) (a5 : Memref sig .tc .vmem S1000x2048 .i32) (h5 : a5.IsWhole) (a6 : Memref sig .tc .vmem S2048x128 .i32) (h6 : a6.IsWhole) (hc : ¬cond0_0 i)
    (x0 : Vec F S2048x128 .f32) (x1 : Vec F S1x2048 .i32) (xo2 : Vec F S1x1000x256 .f32) (xs0 : Vec F S1000x2048 .i32) (xs1 : Vec F S2048x128 .i32) :
    out0_B_2 (F := F) c i a2 h2 a3 h3 a4 h4 a5 h5 a6 h6 hc x0 x1 xo2 xs0 xs1 = k0_pay1 (k0_pay5 x0 xs1) (k0_pay6 x1 xs0) xo2 := by
  unfold out0_B_2
  rw [View.read_writes_eq_canon _ _ _ (cover0_B_2 c i a2 h2 a3 h3 a4 h4 a5 h5 a6 h6 hc x0 x1 xo2 xs0 xs1)]
  unfold kernelRun0_B
  dsimp only
  sl_unfold_words
  rw [View.canon_unit_zero (S := S1x1000x256) hz3]
  simp only [View.readAt_eq_ld, h2.read_unread, h3.read_unread, h4.read_unread, h5.read_unread, h6.read_unread,
    View.ld_unit_zero (S := S2048x128) hz2, View.ld_unit_zero (S := S1x2048) hz2,
    View.ld_unit_zero (S := S1000x2048) hz2, View.ld_unit_zero (S := S1x1000x256) hz3]

end Cert.KernelIdeal.Body

end
-- ==== Proof.LibKeepdims.lean ====
/-
  The column forms a `jnp.sum(…, axis=1, keepdims=True)` kernel meets, read at an index, for any extents:
  a vector `[a]` viewed as a column `[a, 1]`; a column `[a, 1]` broadcast along its rows to `[a, b]`; and, at the
  extended reals, a lane sum of an `[a, b]` array over its second axis as the plain sum over the row.
-/
import Idealize.ShloMosaic.Lib.Pipeline.Value
import Idealize.ShloMosaic.Lib.ValueIdx
import Idealize.ShloMosaic.PureOps.Ideal.Laws

noncomputable section

namespace Idealize.ShloMosaic.Keepdims

open Idealize.ShloMosaic Idealize.ShloMosaic.ValueIdx

variable {α : Type}

/-- An `[a]` array cast to the column `[a, 1]` reads, at `(r, u)`, the operand at `r`, whatever the unit coordinate. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast to `[a, b]` reads, at `(r, c)`, the column at row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- At the extended reals a lane sum of an `[a, b]` array over its second axis, from the zero accumulator, reads at row
    `r` as the sum of the row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => ?_
  refine congrArg src (funext fun ax => Fin.ext ?_)
  rw [Shape.Reduces.lift_val]
  match ax with
  | ⟨0, _⟩ => rfl
  | ⟨1, _⟩ => rfl

end Idealize.ShloMosaic.Keepdims

end
-- ==== Proof.KernelPayload.lean ====
/-
  The kernel body's arithmetic read at an index, at the extended reals. The body zeroes its output block and writes the
  two index tables (the class number down the rows of a 1000 x 2048 table, the column number along the rows of a
  2048 x 128 table) at a core's first block; at every block it forms the 2048 x 256 augmented rows (the data, then for
  columns 128, 129, 130 the row's squared norm, the constant 1, and the squared norm minus itself, picked by comparing the
  column table with 0, 1, 2, else 0), the 1000 x 2048 label matches (the class table compared with the block's label
  words, as 1 or 0), multiplies the two and adds the product to the output block. A change of float format is the
  identity here, so the squared norm narrowed and widened again is itself.
-/
import proofs.«417570_j76991583748730_3_alg».proof.Proof.Gen.KernelIdeal.Skeleton
import proofs.«417570_j76991583748730_3_alg».proof.Proof.Spec
import proofs.«417570_j76991583748730_3_alg».proof.Proof.LibKeepdims
import Idealize.ShloMosaic.Lib.Pipeline.Value
import Idealize.ShloMosaic.Lib.ValueLayout
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- The zero block. -/
theorem pay2_apply (l : Fin 1000) (d : Fin 256) : (k0_pay2 (F := Ideal)) (ix3 (0 : Fin 1) l d) = 0 := by
  unfold k0_pay2
  refine (shapeCast_ab_1ab_apply _ _ (0 : Fin 1) l d).trans ?_
  exact Cert.Spec.ofBits_zero_f32

/-- The class table: row l holds the class number l. -/
theorem pay3_apply (l : Fin 1000) (j : Fin 2048) : k0_pay3 (ix2 l j) = BitVec.ofNat 32 l.val := by
  unfold k0_pay3
  show shapeCast S1000x2048 (iota .tc S1000x2048 32 [0] iota_S1000x2048_d0_w32) shapeCasts_S1000x2048_S1000x2048 (ix2 l j) = _
  rw [shapeCast_self]
  exact iota_single_apply .tc S1000x2048 32 0 iota_S1000x2048_d0_w32 (ix2 l j)

/-- The column table: column e holds the column number e. -/
theorem pay4_apply (j : Fin 2048) (e : Fin 128) : k0_pay4 (ix2 j e) = BitVec.ofNat 32 e.val := by
  unfold k0_pay4
  show shapeCast S2048x128 (iota .tc S2048x128 32 [1] iota_S2048x128_d1_w32) shapeCasts_S2048x128_S2048x128 (ix2 j e) = _
  rw [shapeCast_self]
  exact iota_single_apply .tc S2048x128 32 1 iota_S2048x128_d1_w32 (ix2 j e)

/-! ## The augmented rows -/

section Concat
variable {α : Type}

/-- The two pieces side by side, read left of column 128: the left piece. -/
theorem concat_cols_left (x₁ x₂ : S2048x128.Idx → α) (j : Fin 2048) (d : Fin 256) (h : d.val < 128) :
    concatenate S2048x256 1 [⟨S2048x128, x₁⟩, ⟨S2048x128, x₂⟩] concatenates_S2048x128_S2048x128_S2048x256_d1 (ix2 j d)
      = x₁ (ix2 j ⟨d.val, h⟩) :=
  concatenate_pair_apply_left 1 x₁ x₂ _ (ix2 j d) rfl (ix2 j ⟨d.val, h⟩) fun b =>
    match b with
    | ⟨0, _⟩ => rfl
    | ⟨1, _⟩ => rfl

/-- The two pieces side by side, read from column 128 on: the right piece, 128 columns back. -/
theorem concat_cols_right (x₁ x₂ : S2048x128.Idx → α) (j : Fin 2048) (d : Fin 256) (h : 128 ≤ d.val) :
    concatenate S2048x256 1 [⟨S2048x128, x₁⟩, ⟨S2048x128, x₂⟩] concatenates_S2048x128_S2048x128_S2048x256_d1 (ix2 j d)
      = x₂ (ix2 j ⟨d.val - 128, by have := d.isLt; omega⟩) :=
  concatenate_pair_apply_right 1 x₁ x₂ _ (ix2 j d) rfl rfl (ix2 j ⟨d.val - 128, by have := d.isLt; omega⟩)
    (fun b hb => match b, hb with
      | ⟨0, _⟩, _ => rfl
      | ⟨1, _⟩, hb => absurd rfl hb)
    (by show d.val - 128 + 128 = d.val; omega)

/-- A column through the identity cast, spread along the rows. -/
theorem col_apply (v : S2048x1.Idx → α) (j : Fin 2048) (e : Fin 128) :
    broadcastTo S2048x128 (shapeCast S2048x1 v shapeCasts_S2048x1_S2048x1) broadcasts_S2048x1_S2048x128 (ix2 j e)
      = v (ix2 j (0 : Fin 1)) := by
  rw [shapeCast_self]
  exact Keepdims.broadcastTo_a1_ab_apply v _ j e

/-- A choice on the comparison of two small numbers' words. -/
theorem select_cmpi_ofNat (e k : ℕ) (he : e < 2 ^ 32) (hk : k < 2 ^ 32) (a b : α) :
    Scalar.select (IntOp.cmpi .eq (BitVec.ofNat 32 e) (BitVec.ofNat 32 k)) a b = if e = k then a else b := by
  by_cases h : e = k
  · subst h
    rw [if_pos rfl]
    have hc : IntOp.cmpi .eq (BitVec.ofNat 32 e) (BitVec.ofNat 32 e) = 1#1 := by simp [IntOp.cmpi]
    rw [hc]; exact select_one a b
  · rw [if_neg h]
    have hne : BitVec.ofNat 32 e ≠ BitVec.ofNat 32 k := by
      intro hh
      have := congrArg BitVec.toNat hh
      rw [BitVec.toNat_ofNat, BitVec.toNat_ofNat, Nat.mod_eq_of_lt he, Nat.mod_eq_of_lt hk] at this
      exact h this
    have hb : (BitVec.ofNat 32 e == BitVec.ofNat 32 k) = false := beq_eq_false_iff_ne.mpr hne
    have hc : IntOp.cmpi .eq (BitVec.ofNat 32 e) (BitVec.ofNat 32 k) = 0#1 := by
      simp [IntOp.cmpi, hb, hne]
    rw [hc]; exact select_zero a b

/-- The right piece: the nested choice on the column table against 0, 1, 2. -/
theorem right_piece (ci : Vec Ideal S2048x128 .i32) (hci : ∀ (j : Fin 2048) (e : Fin 128), ci (ix2 j e) = BitVec.ofNat 32 e.val)
    (a b c z : S2048x128.Idx → α) (j : Fin 2048) (e : ℕ) (he : e < 128) :
    select (cmpi .eq ci (broadcast S2048x128 0#32)) a
        (select (cmpi .eq ci (broadcast S2048x128 1#32)) b
          (select (cmpi .eq ci (broadcast S2048x128 2#32)) c z)) (ix2 j ⟨e, he⟩)
      = if e = 0 then a (ix2 j ⟨e, he⟩) else if e = 1 then b (ix2 j ⟨e, he⟩)
        else if e = 2 then c (ix2 j ⟨e, he⟩) else z (ix2 j ⟨e, he⟩) := by
  show Scalar.select (IntOp.cmpi .eq (ci (ix2 j ⟨e, he⟩)) (BitVec.ofNat 32 0)) _
      (Scalar.select (IntOp.cmpi .eq (ci (ix2 j ⟨e, he⟩)) (BitVec.ofNat 32 1)) _
        (Scalar.select (IntOp.cmpi .eq (ci (ix2 j ⟨e, he⟩)) (BitVec.ofNat 32 2)) _ _)) = _
  rw [hci]
  show Scalar.select (IntOp.cmpi .eq (BitVec.ofNat 32 e) (BitVec.ofNat 32 0)) _
      (Scalar.select (IntOp.cmpi .eq (BitVec.ofNat 32 e) (BitVec.ofNat 32 1)) _
        (Scalar.select (IntOp.cmpi .eq (BitVec.ofNat 32 e) (BitVec.ofNat 32 2)) _ _)) = _
  rw [select_cmpi_ofNat e 0 (by omega) (by norm_num), select_cmpi_ofNat e 1 (by omega) (by norm_num),
    select_cmpi_ofNat e 2 (by omega) (by norm_num)]

end Concat

/-- The squared-norm column: the lane sum of the squares, as a column. -/
theorem nrm_col (x : FVec Ideal S2048x128 .f32) (j : Fin 2048) (u : Fin 1) :
    shapeCast S2048x1 (multiReduction (F := Ideal) .add [1] S2048 (mulf x x) 0x00000000#32 reduces_S2048x128_S2048 (.inl rfl) rfl)
        shapeCasts_S2048_S2048x1 (ix2 j u)
      = ∑ e : Fin 128, x (ix2 j e) * x (ix2 j e) := by
  refine (Keepdims.shapeCast_a_a1_apply _ _ j u).trans ?_
  exact Keepdims.laneSum_apply (mulf x x) _ _ _ _ j

/-- The augmented rows of a block, given the column table. -/
theorem pay5_apply (x : Vec Ideal S2048x128 .f32) (ci : Vec Ideal S2048x128 .i32)
    (hci : ∀ (j : Fin 2048) (e : Fin 128), ci (ix2 j e) = BitVec.ofNat 32 e.val) (j : Fin 2048) (d : Fin 256) :
    k0_pay5 (F := Ideal) x ci (ix2 j d) = Cert.Spec.xaug (fun (j : Fin 2048) (e : Fin 128) => (x (ix2 j e) : EReal)) j d := by
  unfold k0_pay5 Cert.Spec.xaug
  have hd := d.isLt
  by_cases h : d.val < 128
  · rw [dif_pos h]
    refine (concat_cols_left _ _ j d h).trans ?_
    show shapeCast S2048x128 x shapeCasts_S2048x128_S2048x128 (ix2 j ⟨d.val, h⟩) = x (ix2 j ⟨d.val, h⟩)
    rw [shapeCast_self]
  · rw [dif_neg h]
    refine (concat_cols_right _ _ j d (Nat.le_of_not_gt h)).trans ?_
    refine (right_piece ci hci _ _ _ _ j (d.val - 128) (by omega)).trans ?_
    by_cases h0 : d.val = 128
    · have e0 : d.val - 128 = 0 := by omega
      rw [if_pos e0, if_pos h0]
      refine (col_apply _ j _).trans ?_
      refine (truncf_apply (ψ := .bf16) _ bitsLt_bf16_f32 _).trans ?_
      refine (nrm_col _ j 0).trans ?_
      rw [shapeCast_self]
      rfl
    · have e0 : ¬ d.val - 128 = 0 := by omega
      rw [if_neg e0, if_neg h0]
      by_cases h1 : d.val = 129
      · have e1 : d.val - 128 = 1 := by omega
        rw [if_pos e1, if_pos h1]
        refine (col_apply _ j _).trans ?_
        exact Cert.Spec.ofBits_one_bf16
      · have e1 : ¬ d.val - 128 = 1 := by omega
        rw [if_neg e1, if_neg h1]
        by_cases h2 : d.val = 130
        · have e2 : d.val - 128 = 2 := by omega
          rw [if_pos e2, if_pos h2]
          refine (col_apply _ j _).trans ?_
          refine (truncf_apply (ψ := .bf16) _ bitsLt_bf16_f32 _).trans ?_
          refine (subf_apply _ _ _).trans ?_
          rw [shapeCast_self]
          have hn : _ = Cert.Spec.nrm (fun (j : Fin 2048) (e : Fin 128) => (x (ix2 j e) : EReal)) j := nrm_col x j 0
          exact congrArg₂ (· - ·) hn hn
        · have e2 : ¬ d.val - 128 = 2 := by omega
          rw [if_neg e2, if_neg h2]
          refine (col_apply _ j _).trans ?_
          exact Cert.Spec.ofBits_zero_bf16

/-! ## The label matches -/

/-- A comparison's bit widened and read as a number: 1 where the words agree, else 0. -/
theorem sitofp_extui_cmpi_eq (a b : BitVec 32) :
    (Scalar.sitofp (F := Ideal) .f32 ((IntOp.cmpi .eq a b).setWidth 32) : EReal) = if a = b then 1 else 0 := by
  by_cases h : a = b
  · subst h; simp [IntOp.cmpi]
  · have hb : (a == b) = false := beq_eq_false_iff_ne.mpr h
    simp [IntOp.cmpi, hb, h]

/-- The label matches of a block, given the class table. -/
theorem pay6_apply (yv : Vec Ideal S1x2048 .i32) (li : Vec Ideal S1000x2048 .i32)
    (hli : ∀ (l : Fin 1000) (j : Fin 2048), li (ix2 l j) = BitVec.ofNat 32 l.val) (l : Fin 1000) (j : Fin 2048) :
    k0_pay6 (F := Ideal) yv li (ix2 l j) = Cert.Spec.oh (yv (ix2 (0 : Fin 1) j)) l := by
  unfold k0_pay6
  show Scalar.sitofp (F := Ideal) .f32 ((IntOp.cmpi .eq (li (ix2 l j))
      (broadcastTo S1000x2048 (shapeCast S1x2048 yv shapeCasts_S1x2048_S1x2048) broadcasts_S1x2048_S1000x2048 (ix2 l j))).setWidth 32) = _
  rw [shapeCast_self, broadcastTo_1b_ab_apply, hli, sitofp_extui_cmpi_eq]
  unfold Cert.Spec.oh
  by_cases h : yv (ix2 (0 : Fin 1) j) = BitVec.ofNat 32 l.val
  · rw [if_pos h, if_pos h.symm]
  · rw [if_neg h, if_neg (fun h' => h h'.symm)]

/-! ## The product's index maps -/

theorem lhs_dot_0 (j : S1000x256.Idx) (k : dot_S1000x2048_S2048x256_S1000x256_1_0_0_1_n_n.contr.Idx) :
    ((dot_S1000x2048_S2048x256_S1000x256_1_0_0_1_n_n.lhsIdx j k) 0).val = (j 0).val := by
  simp [DotDims.lhsIdx, dot_S1000x2048_S2048x256_S1000x256_1_0_0_1_n_n]; rfl

theorem lhs_dot_1 (j : S1000x256.Idx) (k : dot_S1000x2048_S2048x256_S1000x256_1_0_0_1_n_n.contr.Idx) :
    ((dot_S1000x2048_S2048x256_S1000x256_1_0_0_1_n_n.lhsIdx j k) 1).val = (k ⟨0, Nat.one_pos⟩).val :=
  DotDims.lhsIdx_val_of_single dot_S1000x2048_S2048x256_S1000x256_1_0_0_1_n_n rfl j k

theorem rhs_dot_0 (j : S1000x256.Idx) (k : dot_S1000x2048_S2048x256_S1000x256_1_0_0_1_n_n.contr.Idx) :
    ((dot_S1000x2048_S2048x256_S1000x256_1_0_0_1_n_n.rhsIdx j k) 0).val = (k ⟨0, Nat.one_pos⟩).val :=
  DotDims.rhsIdx_val_of_single dot_S1000x2048_S2048x256_S1000x256_1_0_0_1_n_n rfl j k

theorem rhs_dot_1 (j : S1000x256.Idx) (k : dot_S1000x2048_S2048x256_S1000x256_1_0_0_1_n_n.contr.Idx) :
    ((dot_S1000x2048_S2048x256_S1000x256_1_0_0_1_n_n.rhsIdx j k) 1).val = (j 1).val := by
  simp [DotDims.rhsIdx, dot_S1000x2048_S2048x256_S1000x256_1_0_0_1_n_n]; rfl

/-- The product into the zero block at an index: the sum over the 2048 rows. -/
theorem matmul_zero_ix2 (lhs : FVec Ideal S1000x2048 .bf16) (rhs : FVec Ideal S2048x256 .bf16) (l : Fin 1000) (d : Fin 256) :
    matmul dot_S1000x2048_S2048x256_S1000x256_1_0_0_1_n_n none lhs rhs (constant (F := Ideal) S1000x256 .f32 0x00000000#32) (ix2 l d)
      = ∑ j : Fin 2048, lhs (ix2 l j) * rhs (ix2 j d) := by
  refine (Ideal.matmul_constant_zero_apply dot_S1000x2048_S2048x256_S1000x256_1_0_0_1_n_n none lhs rhs (ix2 l d)).trans ?_
  rw [← Equiv.sum_comp (contrEquiv1 dot_S1000x2048_S2048x256_S1000x256_1_0_0_1_n_n 2048 rfl rfl).symm]
  refine Finset.sum_congr rfl fun j _ => ?_
  have hl : dot_S1000x2048_S2048x256_S1000x256_1_0_0_1_n_n.lhsIdx (ix2 l d)
      ((contrEquiv1 dot_S1000x2048_S2048x256_S1000x256_1_0_0_1_n_n 2048 rfl rfl).symm j) = ix2 l j :=
    Shape.idx_ext₂ (lhs_dot_0 _ _)
      ((lhs_dot_1 _ _).trans (contrEquiv1_symm_val dot_S1000x2048_S2048x256_S1000x256_1_0_0_1_n_n 2048 rfl rfl j))
  have hr : dot_S1000x2048_S2048x256_S1000x256_1_0_0_1_n_n.rhsIdx (ix2 l d)
      ((contrEquiv1 dot_S1000x2048_S2048x256_S1000x256_1_0_0_1_n_n 2048 rfl rfl).symm j) = ix2 j d :=
    Shape.idx_ext₂
      ((rhs_dot_0 _ _).trans (contrEquiv1_symm_val dot_S1000x2048_S2048x256_S1000x256_1_0_0_1_n_n 2048 rfl rfl j))
      (rhs_dot_1 _ _)
  rw [hl, hr]

/-- The stored block: what the output block held plus the product of the label matches with the augmented rows. -/
theorem pay1_apply (v35 : FVec Ideal S2048x256 .bf16) (v40 : FVec Ideal S1000x2048 .f32) (v43 : Vec Ideal S1x1000x256 .f32)
    (l : Fin 1000) (d : Fin 256) :
    k0_pay1 (F := Ideal) v35 v40 v43 (ix3 (0 : Fin 1) l d)
      = v43 (ix3 (0 : Fin 1) l d) + ∑ j : Fin 2048, v40 (ix2 l j) * v35 (ix2 j d) := by
  unfold k0_pay1
  refine (shapeCast_ab_1ab_apply _ _ (0 : Fin 1) l d).trans ?_
  refine (addf_apply _ _ (ix2 l d)).trans ?_
  refine congrArg₂ (· + ·) (shapeCast_1ab_ab_apply v43 _ l d) ?_
  exact matmul_zero_ix2 _ v35 l d

end Cert.KernelIdeal.Payload

end
-- ==== Proof.KernelPoints.lean ====
/-
  From the body's runs to the region's output array.

  The 490 grid points are visited in order; point t reads block t of the padded rows (rows 2048 t .. 2048 t + 2047) and
  of the padded label words, and belongs to core t / 245. At a core's first point the output block is reset and the two
  index tables are stored; after point t the tables hold the class numbers and the column numbers, and entry (l, d) of
  the output block holds the sum of the block products of the core's points so far. The block is written back to slab
  t / 245 of the output array after the core's last point (t = 244 mod 245) only, and the two write-backs cover the
  array: slab p of the output array is the sum of core p's 245 block products.
-/
import proofs.«417570_j76991583748730_3_alg».proof.Proof.KernelBody
import proofs.«417570_j76991583748730_3_alg».proof.Proof.KernelPayload
import proofs.«417570_j76991583748730_3_alg».proof.Proof.Spec
import Idealize.ShloMosaic.Lib.Pipeline.Value

noncomputable section

open scoped BigOperators
open Idealize.ShloMosaic Idealize.ShloMosaic.TcCoe Idealize.ShloMosaic.ValueIdx Idealize.SL.Sem
open Idealize.ShloMosaic.Pipeline (Dat)

namespace Cert.KernelIdeal.Points

open Cert.KernelIdeal Cert.KernelIdeal.Gen Cert.KernelIdeal.Body Cert.KernelIdeal.Payload

variable (m : (ℓ : Loc nD τ sig) → Buf (Elt Ideal) ℓ)

/-- The padded data as the region finds it, by row and column. -/
abbrev XP (c : Dev nD) : Fin 1003520 → Fin 128 → EReal := Cert.Spec.mat (n := 1003520) (k := 128) (V m c main_v1)

/-- The padded label words as the region finds them, by position. -/
abbrev YP (c : Dev nD) : Fin 1003520 → BitVec 32 := Cert.Spec.roww (n := 1003520) (V m c main_v4)

/-- A grid point as a block number. -/
def blockOf (t : Fin cfg0.N) : Fin 490 := ⟨t.val, lt_of_lt_of_eq t.isLt N_0⟩

/-- Where the windows sit at point t: the data window at row block t, the label window at column block t, the output
    window at slab t / 245. -/
theorem idx_facts : ∀ t : Fin cfg0.N, win0_0.index t (0 : Fin 2) = t.val ∧ win0_0.index t (1 : Fin 2) = 0
    ∧ win0_1.index t (0 : Fin 2) = 0 ∧ win0_1.index t (1 : Fin 2) = t.val
    ∧ win0_2.index t (0 : Fin 3) = t.val / 245 ∧ win0_2.index t (1 : Fin 3) = 0 ∧ win0_2.index t (2 : Fin 3) = 0 :=
  (by decide +kernel : ∀ t : Fin grid0.N, _)

/-- Entry (j, e) of the data block at point t is row 2048 t + j of the padded data. -/
theorem xblk_apply (c : Dev nD) (t : Fin cfg0.N) (j : Fin 2048) (e : Fin 128) :
    (iblk m c 0 t : Vec Ideal S2048x128 .f32) (ix2 j e) = XP m c (Cert.Spec.row (blockOf t) j) e := by
  obtain ⟨e0, e1, -⟩ := idx_facts t
  unfold iblk
  rw [View.read_apply]
  show V m c main_v1 _ = V m c main_v1 _
  congr 1
  funext a
  apply Fin.ext
  match a with
  | ⟨0, _⟩ => show win0_0.index t (0 : Fin 2) * 2048 + 1 * j.val = t.val * 2048 + j.val; rw [e0]; omega
  | ⟨1, _⟩ => show win0_0.index t (1 : Fin 2) * 128 + 1 * e.val = e.val; rw [e1]; omega

/-- Entry j of the label block at point t is position 2048 t + j of the padded label words. -/
theorem yblk_apply (c : Dev nD) (t : Fin cfg0.N) (j : Fin 2048) :
    (iblk m c 1 t : Vec Ideal S1x2048 .i32) (ix2 (0 : Fin 1) j) = YP m c (Cert.Spec.row (blockOf t) j) := by
  obtain ⟨-, -, e2, e3, -⟩ := idx_facts t
  unfold iblk
  rw [View.read_apply]
  show V m c main_v4 _ = V m c main_v4 _
  congr 1
  funext a
  apply Fin.ext
  match a with
  | ⟨0, _⟩ => show win0_1.index t (0 : Fin 2) * 1 + 1 * 0 = 0; rw [e2]
  | ⟨1, _⟩ => show win0_1.index t (1 : Fin 2) * 2048 + 1 * j.val = t.val * 2048 + j.val; rw [e3]; omega

/-- The block product at point t, formed from tables that hold the class and column numbers, is the specification's. -/
theorem block_product (c : Dev nD) (t : Fin cfg0.N) (li : Vec Ideal S1000x2048 .i32) (ci : Vec Ideal S2048x128 .i32)
    (hli : ∀ (l : Fin 1000) (j : Fin 2048), li (ix2 l j) = BitVec.ofNat 32 l.val)
    (hci : ∀ (j : Fin 2048) (e : Fin 128), ci (ix2 j e) = BitVec.ofNat 32 e.val) (l : Fin 1000) (d : Fin 256) :
    ∑ j : Fin 2048, k0_pay6 (F := Ideal) (iblk m c 1 t) li (ix2 l j) * k0_pay5 (F := Ideal) (iblk m c 0 t) ci (ix2 j d)
      = Cert.Spec.mm (XP m c) (YP m c) (blockOf t) l d := by
  unfold Cert.Spec.mm
  refine Finset.sum_congr rfl fun j _ => ?_
  rw [pay6_apply (iblk m c 1 t) li hli l j, pay5_apply (iblk m c 0 t) ci hci j d, yblk_apply m c t j]
  have hx : (fun (j : Fin 2048) (e : Fin 128) => ((iblk m c 0 t : Vec Ideal S2048x128 .f32) (ix2 j e) : EReal))
      = fun j e => XP m c (Cert.Spec.row (blockOf t) j) e := funext fun j => funext fun e => xblk_apply m c t j e
  rw [hx]
  rfl

/-- What the tables and the output block hold after point n. -/
def Holds (c : Dev nD) (n : ℕ) (h : n < cfg0.N) : Prop :=
  (outsAt0 m c n h).2.1 = k0_pay3 ∧ (outsAt0 m c n h).2.2 = k0_pay4
    ∧ ∀ (l : Fin 1000) (d : Fin 256), (outsAt0 m c n h).1 (ix3 (0 : Fin 1) l d)
        = ∑ k ∈ Finset.range (n % 245 + 1), Cert.Spec.mmN (XP m c) (YP m c) (n - n % 245 + k) l d

/-- A core's first point: the tables are stored, the output block is the zero block plus the point's product. -/
theorem holds_first (c : Dev nD) (t : Fin cfg0.N) (h0 : t.val % 245 = 0) : Holds m c t.val t.isLt := by
  have hN : t.val < 490 := lt_of_lt_of_eq t.isLt N_0
  unfold Holds
  rw [outsAt0_A m c t h0]
  dsimp only
  refine ⟨sout_A_0 .., sout_A_1 .., fun l d => ?_⟩
  rw [out_A_2, pay1_apply, pay2_apply, zero_add, block_product m c t k0_pay3 k0_pay4 pay3_apply pay4_apply l d,
    h0, Finset.sum_range_one, Nat.sub_zero, Nat.add_zero]
  unfold Cert.Spec.mmN
  rw [dif_pos hN]
  rfl

/-- Any other point: the tables are kept, the output block gains the point's product. -/
theorem holds_next (c : Dev nD) (t : Fin cfg0.N) (h0 : ¬t.val % 245 = 0)
    (ih : Holds m c (t.val - 1) (Nat.lt_of_le_of_lt (Nat.sub_le _ _) t.isLt)) : Holds m c t.val t.isLt := by
  have hN : t.val < 490 := lt_of_lt_of_eq t.isLt N_0
  obtain ⟨ih0, ih1, ih2⟩ := ih
  unfold Holds
  rw [outsAt0_B m c t h0]
  dsimp only
  refine ⟨ih0, ih1, fun l d => ?_⟩
  rw [out_B_2, pay1_apply]
  have hli : ∀ (l : Fin 1000) (j : Fin 2048), (outsAt0 m c (t.val - 1) (Nat.lt_of_le_of_lt (Nat.sub_le _ _) t.isLt)).2.1 (ix2 l j) = BitVec.ofNat 32 l.val :=
    fun l j => by rw [ih0]; exact pay3_apply l j
  have hci : ∀ (j : Fin 2048) (e : Fin 128), (outsAt0 m c (t.val - 1) (Nat.lt_of_le_of_lt (Nat.sub_le _ _) t.isLt)).2.2 (ix2 j e) = BitVec.ofNat 32 e.val :=
    fun j e => by rw [ih1]; exact pay4_apply j e
  rw [block_product m c t _ _ hli hci l d]
  have e1 : t.val % 245 + 1 = ((t.val - 1) % 245 + 1) + 1 := by omega
  have e2 : t.val - t.val % 245 = t.val - 1 - (t.val - 1) % 245 := by omega
  have e3 : t.val - 1 - (t.val - 1) % 245 + ((t.val - 1) % 245 + 1) = t.val := by omega
  have hr : ∑ k ∈ Finset.range (t.val % 245 + 1), Cert.Spec.mmN (XP m c) (YP m c) (t.val - t.val % 245 + k) l d
      = ∑ k ∈ Finset.range ((t.val - 1) % 245 + 1), Cert.Spec.mmN (XP m c) (YP m c) (t.val - 1 - (t.val - 1) % 245 + k) l d
        + Cert.Spec.mm (XP m c) (YP m c) (blockOf t) l d := by
    rw [e1, Finset.sum_range_succ, e2, e3]
    congr 1
    unfold Cert.Spec.mmN
    rw [dif_pos hN]
    rfl
  rw [hr, ih2 l d]

/-- After every point the tables hold the class and column numbers and the output block the core's products so far. -/
theorem holds (c : Dev nD) : ∀ (n : ℕ) (h : n < cfg0.N), Holds m c n h
  | 0, h => holds_first m c ⟨0, h⟩ (Nat.zero_mod _)
  | n + 1, h => by
    by_cases h0 : (n + 1) % 245 = 0
    · exact holds_first m c ⟨n + 1, h⟩ h0
    · exact holds_next m c ⟨n + 1, h⟩ h0 (holds c n (Nat.lt_of_succ_lt h))

/-- The region's output array: slab p is core p's 245 block products summed. -/
def slabs (c : Dev nD) : Vec Ideal S2x1000x256 .f32 := fun i =>
  Cert.Spec.slab (XP m c) (YP m c) ⟨(i 0).val, (i 0).isLt⟩ ⟨(i 1).val, (i 1).isLt⟩ ⟨(i 2).val, (i 2).isLt⟩

theorem slabs_apply (c : Dev nD) (p : Fin 2) (l : Fin 1000) (d : Fin 256) :
    slabs m c (ix3 p l d) = Cert.Spec.slab (XP m c) (YP m c) p l d := rfl

/-- What a core's last point writes back is its slab of that array. -/
theorem flushed_eq (c : Dev nD) (t : Fin cfg0.N) (hf : (cfg0.win 2).flush t = true) :
    (dats m 0 c).flushed 2 t = ((cfg0.win 2).blk t).view.read (Elt Ideal) (slabs m c) := by
  have hN : t.val < 490 := lt_of_lt_of_eq t.isLt N_0
  have h244 : t.val % 245 = 244 := (flush0_2 t).mp hf
  obtain ⟨-, -, -, -, e4, e5, e6⟩ := idx_facts t
  show (cfg0.win 2).cut (grid0.coords t) ((dats m 0 c).after 2 t) = _
  rw [after0_2]
  funext y
  obtain ⟨q, l, d, rfl⟩ : ∃ (q : Fin 1) (l : Fin 1000) (d : Fin 256), y = ix3 q l d := ⟨y 0, y 1, y 2, eq_ix3 y⟩
  obtain rfl : q = 0 := Subsingleton.elim _ _
  show (outsAt0 m c t.val t.isLt).1 (ix3 (0 : Fin 1) l d) = slabs m c (((cfg0.win 2).blk t).view.emb (ix3 (0 : Fin 1) l d))
  have he : ((cfg0.win 2).blk t).view.emb (ix3 (0 : Fin 1) l d) = ix3 (⟨t.val / 245, by omega⟩ : Fin 2) l d := by
    funext a
    apply Fin.ext
    match a with
    | ⟨0, _⟩ => show win0_2.index t (0 : Fin 3) * 1 + 1 * 0 = t.val / 245; rw [e4]; omega
    | ⟨1, _⟩ => show win0_2.index t (1 : Fin 3) * 1000 + 1 * l.val = l.val; rw [e5]; omega
    | ⟨2, _⟩ => show win0_2.index t (2 : Fin 3) * 256 + 1 * d.val = d.val; rw [e6]; omega
  rw [he, slabs_apply, (holds m c t.val t.isLt).2.2 l d, h244]
  unfold Cert.Spec.slab
  have e7 : t.val - 244 = t.val / 245 * 245 := by omega
  rw [e7]

/-- The two write-backs cover the output array, so it ends at the two slabs. -/
theorem final (c : Dev nD) : (dats m 0 c).arrAt 2 cfg0.N = slabs m c :=
  (dats m 0 c).arrAt_eq_of_cover 2 (slabs m c) (flushed_eq m c) fun i => by
    have hp : (i 0).val < 2 := (i 0).isLt
    have hl : (i 1).val < 1000 := (i 1).isLt
    have hd : (i 2).val < 256 := (i 2).isLt
    have hlt : (i 0).val * 245 + 244 < cfg0.N := by rw [show cfg0.N = 490 from N_0]; omega
    refine ⟨⟨(i 0).val * 245 + 244, hlt⟩, (flush0_2 _).mpr (by show ((i 0).val * 245 + 244) % 245 = 244; omega), ?_⟩
    obtain ⟨-, -, -, -, e4, e5, e6⟩ := idx_facts ⟨(i 0).val * 245 + 244, hlt⟩
    show i ∈ ((View.whole main_v5).slice (win0_2.rect ⟨(i 0).val * 245 + 244, hlt⟩)).set
    rw [View.set_slice_whole, Rect.mem_set_unit]
    intro a
    match a with
    | ⟨0, _⟩ =>
      show win0_2.index ⟨(i 0).val * 245 + 244, hlt⟩ (0 : Fin 3) * 1 ≤ (i 0).val ∧ (i 0).val < win0_2.index ⟨(i 0).val * 245 + 244, hlt⟩ (0 : Fin 3) * 1 + 1
      rw [e4]; dsimp only; omega
    | ⟨1, _⟩ =>
      show win0_2.index ⟨(i 0).val * 245 + 244, hlt⟩ (1 : Fin 3) * 1000 ≤ (i 1).val ∧ (i 1).val < win0_2.index ⟨(i 0).val * 245 + 244, hlt⟩ (1 : Fin 3) * 1000 + 1000
      rw [e5]; omega
    | ⟨2, _⟩ =>
      show win0_2.index ⟨(i 0).val * 245 + 244, hlt⟩ (2 : Fin 3) * 256 ≤ (i 2).val ∧ (i 2).val < win0_2.index ⟨(i 0).val * 245 + 244, hlt⟩ (2 : Fin 3) * 256 + 256
      rw [e6]; omega

end Cert.KernelIdeal.Points

end
-- ==== Proof.KernelTail.lean ====
/-
  The host operations after the region, read against the specification: the two cores' slabs summed into the aggregate;
  its columns 0..127, 128, 130 and 129 sliced out; the anchors' squared norms and their products with the per-class row
  sums; the per-class sum rebuilt as (S - 2 (A . T)) + count * |A|^2; and the shared closing.
-/
import proofs.«417570_j76991583748730_3_alg».proof.Proof.Gen.KernelIdeal.Frame
import proofs.«417570_j76991583748730_3_alg».proof.Proof.Spec
import proofs.«417570_j76991583748730_3_alg».proof.Proof.LibScatterAddFlat
import Idealize.ShloMosaic.Lib.StableHlo.Run
import Idealize.ShloMosaic.Lib.IdealHost
import Idealize.ShloMosaic.Lib.Pipeline.Value
import Idealize.ShloMosaic.PureOps.Ideal.Laws

noncomputable section

open scoped BigOperators

namespace Cert.KernelIdeal.Tail

open Cert.KernelIdeal Cert.KernelIdeal.Gen Idealize.ShloMosaic Idealize.ShloMosaic.TcCoe Idealize.ShloMosaic.ValueIdx Idealize.SL.Sem
open Idealize.ShloMosaic.Pipeline (Dat)

/-! ## The operations composed, as functions of the output array and the anchors -/

/-- The aggregate: the output array summed over its leading axis (the two slabs), from zero. -/
def aggV (o : FVec Ideal S2x1000x256 .f32) : FVec Ideal S1000x256 .f32 :=
  Host.reduceAdd o (constant (F := Ideal) S_ .f32 0x00000000#32) reducesTo_S2x1000x256_S1000x256_d0 h_S_

/-- Columns 0..127 of the aggregate: the per-class sums of rows. -/
def rowsV (o : FVec Ideal S2x1000x256 .f32) : FVec Ideal S1000x128 .f32 :=
  extractStridedSlice S1000x128 ![0, 0] (aggV o) slices_S1000x256_S1000x128_0_0

/-- Column k of the aggregate, as a vector over the classes. -/
def colV (o : FVec Ideal S2x1000x256 .f32) (k : Nat) (h : S1000x256.Slices ![0, k] S1000x1) : FVec Ideal S1000 .f32 :=
  fun i => shapeCast S1000 (extractStridedSlice S1000x1 ![0, k] (aggV o) h) shapeCasts_S1000x1_S1000 i

/-- The per-class sum of squared distances as the operations rebuild it. -/
def segV (o : FVec Ideal S2x1000x256 .f32) (a : FVec Ideal S1000x128 .f32) : FVec Ideal S1000 .f32 :=
  addf
    (subf (addf (colV o 128 slices_S1000x256_S1000x1_0_128) (colV o 130 slices_S1000x256_S1000x1_0_130))
      (mulf (broadcastInDim S1000 ![] bcast_S_S1000 (constant (F := Ideal) S_ .f32 0x40000000#32))
        (Host.reduceAdd (mulf a (rowsV o)) (constant (F := Ideal) S_ .f32 0x00000000#32) reducesTo_S1000x128_S1000_d1 h_S_)))
    (mulf (colV o 129 slices_S1000x256_S1000x1_0_129)
      (Host.reduceAdd (mulf a a) (constant (F := Ideal) S_ .f32 0x00000000#32) reducesTo_S1000x128_S1000_d1 h_S_))

/-- The per-class terms of the closing. -/
def termV (o : FVec Ideal S2x1000x256 .f32) (a : FVec Ideal S1000x128 .f32) : FVec Ideal S1000 .f32 :=
  select
    (cmpf .ogt (colV o 129 slices_S1000x256_S1000x1_0_129)
      (broadcastInDim S1000 ![] bcast_S_S1000 (constant (F := Ideal) S_ .f32 0x00000000#32)))
    (Host.divf (segV o a) (mulf (colV o 129 slices_S1000x256_S1000x1_0_129) (colV o 129 slices_S1000x256_S1000x1_0_129)))
    (broadcastInDim S1000 ![] bcast_S_S1000 (id (constant (F := Ideal) S_ .f32 0x00000000#32)))

/-- The result: the per-class terms summed, from zero. -/
def resV (o : FVec Ideal S2x1000x256 .f32) (a : FVec Ideal S1000x128 .f32) : FVec Ideal S_ .f32 :=
  Host.reduceAdd (termV o a) (constant (F := Ideal) S_ .f32 0x00000000#32) reducesTo_S1000_S_d0 h_S_

/-! ## Each stage read at an index -/

/-- The aggregate at (l, d) is the sum over the two cores of the output array at (p, l, d). -/
theorem aggV_apply (o : FVec Ideal S2x1000x256 .f32) (l : Fin 1000) (d : Fin 256) :
    aggV o (ix2 l d) = ∑ p : Fin 2, o (ix3 p l d) := by
  unfold aggV
  rw [hostReduceAdd_apply, Ideal.hostReduceAdd_single reducesTo_S2x1000x256_S1000x256_d0 (by decide) o _ (ix2 l d),
    constant_apply, Spec.ofBits_zero_f32, zero_add]
  refine Finset.sum_congr rfl fun p _ => congrArg o ?_
  funext a
  apply Fin.ext
  match a with
  | ⟨0, _⟩ => rfl
  | ⟨1, _⟩ => rfl
  | ⟨2, _⟩ => rfl

/-- A row sum: the sum over the second axis of a 1000 x 128 array, from zero. -/
theorem rowSum_apply (x : FVec Ideal S1000x128 .f32) (l : Fin 1000) :
    Host.reduceAdd x (constant (F := Ideal) S_ .f32 0x00000000#32) reducesTo_S1000x128_S1000_d1 h_S_ (ix1 l)
      = ∑ e : Fin 128, x (ix2 l e) := by
  rw [hostReduceAdd_apply, Ideal.hostReduceAdd_single reducesTo_S1000x128_S1000_d1 (by decide) x _ (ix1 l),
    constant_apply, Spec.ofBits_zero_f32, zero_add]
  refine Finset.sum_congr rfl fun e _ => congrArg x ?_
  funext a
  apply Fin.ext
  match a with
  | ⟨0, _⟩ => rfl
  | ⟨1, _⟩ => rfl

/-- Columns 0..127 read at (l, e): the aggregate at (l, e). -/
theorem rowsV_apply (o : FVec Ideal S2x1000x256 .f32) (l : Fin 1000) (e : Fin 128) :
    rowsV o (ix2 l e) = aggV o (ix2 l ⟨e.val, by have := e.isLt; omega⟩) := by
  unfold rowsV
  refine extractStridedSlice_apply _ _ _ _ (ix2 l ⟨e.val, by have := e.isLt; omega⟩) fun a => ?_
  match a with
  | ⟨0, _⟩ => show l.val = 0 + l.val; omega
  | ⟨1, _⟩ => show e.val = 0 + e.val; omega

/-- Column k read at class l: the aggregate at (l, k). -/
theorem colV_apply (o : FVec Ideal S2x1000x256 .f32) (k : Nat) (hk : k < 256) (h : S1000x256.Slices ![0, k] S1000x1)
    (l : Fin 1000) : colV o k h (ix1 l) = aggV o (ix2 l ⟨k, hk⟩) := by
  unfold colV
  refine (shapeCast_apply _ _ (ix1 l) (ix2 l (0 : Fin 1)) ?_).trans ?_
  · rw [Shape.rowMajor_val_two, Shape.rowMajor_val_one]
    show l.val * 1 + 0 = l.val
    omega
  · refine extractStridedSlice_apply _ _ h _ (ix2 l ⟨k, hk⟩) fun a => ?_
    match a with
    | ⟨0, _⟩ => show l.val = 0 + l.val; omega
    | ⟨1, _⟩ => show k = k + 0; omega

/-- The aggregate is the specification's once the output array is the two slabs. -/
theorem aggV_spec (o : FVec Ideal S2x1000x256 .f32) (XP : Fin 1003520 → Fin 128 → EReal) (YP : Fin 1003520 → BitVec 32)
    (hs : ∀ (p : Fin 2) (l : Fin 1000) (d : Fin 256), o (ix3 p l d) = Cert.Spec.slab XP YP p l d)
    (l : Fin 1000) (d : Fin 256) : aggV o (ix2 l d) = Cert.Spec.agg XP YP l d := by
  rw [aggV_apply]
  unfold Cert.Spec.agg
  exact Finset.sum_congr rfl fun p _ => hs p l d

/-- The rebuilt per-class sum is the specification's. -/
theorem segV_apply (o : FVec Ideal S2x1000x256 .f32) (a : FVec Ideal S1000x128 .f32)
    (XP : Fin 1003520 → Fin 128 → EReal) (YP : Fin 1003520 → BitVec 32)
    (hs : ∀ (p : Fin 2) (l : Fin 1000) (d : Fin 256), o (ix3 p l d) = Cert.Spec.slab XP YP p l d) (l : Fin 1000) :
    segV o a (ix1 l) = Cert.Spec.segK (Cert.Spec.mat a) XP YP l := by
  have hb : ∀ x : FVec Ideal S_ .f32, broadcastInDim S1000 ![] bcast_S_S1000 x (ix1 l) = x ix0 :=
    fun x => broadcastInDim_scalar_apply bcast_S_S1000 x (ix1 l)
  unfold segV Cert.Spec.segK
  simp only [addf_apply, subf_apply, mulf_apply, hb, constant_apply, Cert.Spec.ofBits_two_f32,
    rowSum_apply, rowsV_apply, colV_apply o 128 (by norm_num), colV_apply o 130 (by norm_num), colV_apply o 129 (by norm_num),
    aggV_spec o XP YP hs]

/-- One class's term of the closing is the specification's. -/
theorem termV_apply (o : FVec Ideal S2x1000x256 .f32) (a : FVec Ideal S1000x128 .f32)
    (XP : Fin 1003520 → Fin 128 → EReal) (YP : Fin 1003520 → BitVec 32)
    (hs : ∀ (p : Fin 2) (l : Fin 1000) (d : Fin 256), o (ix3 p l d) = Cert.Spec.slab XP YP p l d) (l : Fin 1000) :
    termV o a (ix1 l) = Cert.Spec.pc (Cert.Spec.segK (Cert.Spec.mat a) XP YP l) (Cert.Spec.cntK XP YP l) := by
  have hb : ∀ x : FVec Ideal S_ .f32, broadcastInDim S1000 ![] bcast_S_S1000 x (ix1 l) = x ix0 :=
    fun x => broadcastInDim_scalar_apply bcast_S_S1000 x (ix1 l)
  unfold termV Cert.Spec.pc Cert.Spec.cntK
  simp only [select_apply, cmpf_apply, hostDivf_apply, mulf_apply, hb, constant_apply, id,
    Cert.Spec.ofBits_zero_f32, Ideal.cmpf_def, segV_apply o a XP YP hs, colV_apply o 129 (by norm_num), aggV_spec o XP YP hs]

/-- The operations' result is the specification's. -/
theorem resV_value (o : FVec Ideal S2x1000x256 .f32) (a : FVec Ideal S1000x128 .f32)
    (XP : Fin 1003520 → Fin 128 → EReal) (YP : Fin 1003520 → BitVec 32)
    (hs : ∀ (p : Fin 2) (l : Fin 1000) (d : Fin 256), o (ix3 p l d) = Cert.Spec.slab XP YP p l d) :
    resV o a = fun _ => Cert.Spec.res (Cert.Spec.segK (Cert.Spec.mat a) XP YP) (Cert.Spec.cntK XP YP) := by
  funext i
  unfold resV Cert.Spec.res
  rw [hostReduceAdd_apply, Ideal.hostReduceAdd_total reducesTo_S1000_S_d0 (fun b => b.elim0), constant_apply,
    Cert.Spec.ofBits_zero_f32, zero_add]
  refine Fintype.sum_equiv Cert.LibScatterAddFlat.idxEquiv1 _ _ fun j => ?_
  rw [eq_ix1 j]
  exact termV_apply o a XP YP hs (j 0)

variable (m : (ℓ : Loc nD τ sig) → Buf (Elt Ideal) ℓ)

/-- The program's result from the region's output array, once that array is the two slabs of the specification. -/
theorem tail_value (c : Dev nD) (o : FVec Ideal S2x1000x256 .f32) (ho : (dats m 0 c).arrAt 2 cfg0.N = o)
    (XP : Fin 1003520 → Fin 128 → EReal) (YP : Fin 1003520 → BitVec 32)
    (hs : ∀ (p : Fin 2) (l : Fin 1000) (d : Fin 256), o (ix3 p l d) = Cert.Spec.slab XP YP p l d) :
    Pipeline.afterTail₀ cfgs (dats m) 0 (V0 m) [hostOps1, hostOps1_1, hostOps1_2] c main_v29
      = fun _ => Cert.Spec.res (Cert.Spec.segK (Cert.Spec.mat (m ((c : Thread nD τ).loc main_arg1))) XP YP) (Cert.Spec.cntK XP YP) := by
  have e5 : Pipeline.withArrays (cfgs 0).spec c (V0 m c) (fun w => (dats m 0 c).arrAt w (cfgs 0).N) (Proc.devRef .tc main_v5) = o :=
    (Pipeline.withArrays_arr spec0 launch0.win.arr_inj c _ _ 2).trans ho
  have e1 : Pipeline.withArrays (cfgs 0).spec c (V0 m c) (fun w => (dats m 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans
      (V_main_arg1 m c)
  unfold Pipeline.afterTail₀
  simp only [hostOps1, hostOps1_1, hostOps1_2, List.flatten_cons, List.flatten_nil, List.append_nil, List.cons_append,
    List.nil_append]
  open Idealize.ShloMosaic.StableHlo in after_results_simp
  rw [e5, e1]
  exact resV_value o (m ((c : Thread nD τ).loc main_arg1)) XP YP hs

end Cert.KernelIdeal.Tail

end
-- ==== Proof.lean ====
/-
  The certificate: a per-class loss computed two ways.

  Both programs take a data matrix x (1000000 x 128), an anchor matrix a (1000 x 128) and a label word per data row,
  and return the sum over the 1000 classes l of (sum over the rows i labelled l of |x_i - a_l|^2) / (number of such
  rows)^2, a class with no row contributing 0. The reference gathers each row's anchor, takes the squared distances and
  adds them per class with an accumulating scatter; a label word outside 0..999 lands in no class. The kernel pads the
  rows to 490 blocks of 2048 (padding labels -1, which match no class), and for each block multiplies the 1000 x 2048
  matrix of label matches with the rows augmented by their squared norm and the constant 1; two cores sum 245 block
  products each, and the host rebuilds the per-class sum of squared distances as S_l - 2 a_l . T_l + count_l |a_l|^2
  from the per-class sum of squared norms S_l, the per-class row sum T_l and the class size count_l.

  Over the extended reals the two agree when the entries of x and a are finite (the precondition): expanding the square
  and exchanging the finite sums is valid on real numbers, and the kernel's correction column |x_i|^2 - |x_i|^2 is 0.
  Both programs then apply the same closing to equal per-class sums and equal class sizes.

  The modules: Spec (the functions both sides are read against), KernelPayload (the body's arithmetic at an index),
  KernelBody (what one run of the body leaves), KernelPoints (the induction over the grid and the output array),
  KernelPrefix and KernelTail (the host operations before and after the region), RefValue (the reference read),
  SumIndex and ClassAlgebra (the re-indexing and the per-class identity), Finite (the precondition read).
  The idealized kernel differs from the kernel as compiled by one rewrite, a squared norm narrowed to sixteen bits and
  widened again read as itself, which is that rule's statement.
-/
import proofs.«417570_j76991583748730_3_alg».proof.Defs
import proofs.«417570_j76991583748730_3_alg».proof.Proof.Gen.Kernel
import proofs.«417570_j76991583748730_3_alg».proof.Proof.Gen.Kernel.Skeleton
import proofs.«417570_j76991583748730_3_alg».proof.Proof.Gen.Kernel.Launch
import proofs.«417570_j76991583748730_3_alg».proof.Proof.Gen.Kernel.Points
import proofs.«417570_j76991583748730_3_alg».proof.Proof.Gen.Kernel.Frame
import proofs.«417570_j76991583748730_3_alg».proof.Proof.Gen.KernelIdeal
import proofs.«417570_j76991583748730_3_alg».proof.Proof.Gen.KernelIdeal.Skeleton
import proofs.«417570_j76991583748730_3_alg».proof.Proof.Gen.KernelIdeal.Launch
import proofs.«417570_j76991583748730_3_alg».proof.Proof.Gen.KernelIdeal.Points
import proofs.«417570_j76991583748730_3_alg».proof.Proof.Gen.KernelIdeal.Frame
import proofs.«417570_j76991583748730_3_alg».proof.Proof.Gen.ReferenceIdeal
import proofs.«417570_j76991583748730_3_alg».proof.Proof.Gen.Pre_finite_inputs
import proofs.«417570_j76991583748730_3_alg».proof.Proof.RefRun
import proofs.«417570_j76991583748730_3_alg».proof.Proof.RefRead
import proofs.«417570_j76991583748730_3_alg».proof.Proof.Spec
import proofs.«417570_j76991583748730_3_alg».proof.Proof.SumIndex
import proofs.«417570_j76991583748730_3_alg».proof.Proof.ClassAlgebra
import proofs.«417570_j76991583748730_3_alg».proof.Proof.Finite
import proofs.«417570_j76991583748730_3_alg».proof.Proof.RefValue
import proofs.«417570_j76991583748730_3_alg».proof.Proof.KernelPrefix
import proofs.«417570_j76991583748730_3_alg».proof.Proof.KernelPoints
import proofs.«417570_j76991583748730_3_alg».proof.Proof.KernelTail
import Idealize.ShloMosaic.Adequacy
import Idealize.ShloMosaic.Init

noncomputable section

open Idealize.ShloMosaic Idealize.ShloMosaic.TcCoe Idealize.ShloMosaic.ValueIdx Idealize.SL.Sem

/-! ## The kernel's run, its result read against the specification -/

namespace Cert.KernelIdeal.Bridge

open Cert.KernelIdeal Cert.KernelIdeal.Gen Cert.KernelIdeal.Points

variable (m : (ℓ : Loc nD τ sig) → Buf (Elt Ideal) ℓ) (ρ : Dev nD → PrngReg)

/-- The result the kernel's program ends with on core c, as the closing of the kernel's per-class sums and sizes. -/
def result (c : Dev nD) : Buf (Elt Ideal) ((c : Thread nD τ).loc main_v29) :=
  fun _ => Cert.Spec.res
    (Cert.Spec.segK (Cert.Spec.mat (n := 1000) (k := 128) (m ((c : Thread nD τ).loc main_arg1))) (XP m c) (YP m c))
    (Cert.Spec.cntK (XP m c) (YP m c))

/-- Every weakly fair execution of the kernel's program ends with that result and the arguments unchanged. -/
theorem run : θ_run defs (onTc (τ := τ) (main (F := Ideal))) ⟨m, fun _ => 0, ρ⟩ fun r => ∀ c : Dev nD,
      r.2.mem ((c : Thread nD τ).loc main_v29) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v29 (Pipeline.mem_restRefs_of main_v29 (by decide) (by decide))).trans
        (Cert.KernelIdeal.Tail.tail_value m c (slabs m c) (final m c) (XP m c) (YP m c) (slabs_apply m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

/-- Under the precondition the kernel's result is the closing of the REFERENCE's per-class sums and sizes of the same
    arguments: the padded arrays are the arguments padded, the class sizes agree, and with finite entries the rebuilt
    per-class sums agree. -/
theorem result_eq (c : Dev nD)
    (hpre : Cert.Pre_finite_inputs.fn (F := Ideal) (m ((c : Thread nD τ).loc main_arg0)) (m ((c : Thread nD τ).loc main_arg1))
      (m ((c : Thread nD τ).loc main_arg2)) = fun _ => 1#1) :
    result m c = fun _ => Cert.Spec.res
      (Cert.Spec.segR (Cert.Spec.mat (n := 1000000) (k := 128) (m ((c : Thread nD τ).loc main_arg0)))
        (Cert.Spec.mat (n := 1000) (k := 128) (m ((c : Thread nD τ).loc main_arg1)))
        (Cert.Spec.vecw (n := 1000000) (m ((c : Thread nD τ).loc main_arg2))))
      (Cert.Spec.cntR (Cert.Spec.vecw (n := 1000000) (m ((c : Thread nD τ).loc main_arg2)))) := by
  have hX : XP m c = Cert.Spec.padX (Cert.Spec.mat (n := 1000000) (k := 128) (m ((c : Thread nD τ).loc main_arg0))) :=
    funext fun n => funext fun e => Cert.KernelIdeal.Prefix.padded_x m c n e
  have hY : YP m c = Cert.Spec.padY (Cert.Spec.vecw (n := 1000000) (m ((c : Thread nD τ).loc main_arg2))) :=
    funext fun n => Cert.KernelIdeal.Prefix.padded_y m c n
  obtain ⟨f0, f1⟩ := Cert.Finite.finite_of_pre _ _ _ hpre
  unfold result
  rw [hX, hY]
  have hs := funext fun l => Cert.ClassAlgebra.seg_eq
    (Cert.Spec.mat (n := 1000000) (k := 128) (m ((c : Thread nD τ).loc main_arg0)))
    (Cert.Spec.mat (n := 1000) (k := 128) (m ((c : Thread nD τ).loc main_arg1)))
    (Cert.Spec.vecw (n := 1000000) (m ((c : Thread nD τ).loc main_arg2)))
    (fun i e => f0 (ix2 i e)) (fun l e => f1 (ix2 l e)) l
  have hc := funext fun l => Cert.SumIndex.cnt_eq
    (Cert.Spec.mat (n := 1000000) (k := 128) (m ((c : Thread nD τ).loc main_arg0)))
    (Cert.Spec.vecw (n := 1000000) (m ((c : Thread nD τ).loc main_arg2))) l
  rw [hs, hc]

end Cert.KernelIdeal.Bridge

/-! ## The claims -/

namespace Cert.Proof

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference has no kernel: its frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- The one rewrite of the idealized kernel: a value narrowed to sixteen bits and widened again is read as itself. -/
theorem preserves : Cert.preserves_Kernel_KernelIdeal :=
  IdealRules.truncf_extf.statement Cert.KernelIdeal.S2048x1 .f32 .bf16

/-- From arguments that agree, under the precondition, both programs end with the closing of the reference's per-class
    sums and class sizes. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Bridge.result m c, Cert.KernelIdeal.Bridge.run m ρ, ?_⟩
  refine (θ_run Cert.ReferenceIdeal.defs _ _).mono (fun _ h c => ⟨(h c).1.trans ?_, (h c).2⟩)
    (Cert.ReferenceIdeal.ValueP.run (F := Ideal) m' ρ')
  rw [(hagree c).1, (hagree c).2.1, (hagree c).2.2]
  refine (Cert.ReferenceIdeal.ReadP.val_main_v22_eq _ _ _).trans ((Cert.RefSide.value _ _ _).trans ?_)
  exact (Cert.KernelIdeal.Bridge.result_eq m c (hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
